-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x480x64x64 : Shape := ⟨4, ![16, 480, 64, 64]⟩
abbrev S1x128x1x1 : Shape := ⟨4, ![1, 128, 1, 1]⟩
abbrev S_ : Shape := ⟨0, ![]⟩

class Facts : Prop where
  bcast_S_S16x480x64x64 : S_.BroadcastsInDim S16x480x64x64 (![] : Fin 0 → Fin S16x480x64x64.rank)
  reducesTo_S16x480x64x64_S_d0_1_2_3 : S16x480x64x64.ReducesTo [0, 1, 2, 3] S_
  h_S_ : 0 < S_.numel
  bcast_S_S1x128x1x1 : S_.BroadcastsInDim S1x128x1x1 (![] : Fin 0 → Fin S1x128x1x1.rank)
  reducesTo_S1x128x1x1_S_d0_1_2_3 : S1x128x1x1.ReducesTo [0, 1, 2, 3] S_

variable [Facts]

def fn {F : FTy → Type} [FloatOps F] (main_arg0 : FVec F S16x480x64x64 .f32) (main_arg1 : FVec F S1x128x1x1 .f32) (main_arg2 : FVec F S1x128x1x1 .f32) : IVec S_ 1 :=
  let main_v0 : FVec F S16x480x64x64 .f32 := Host.absf main_arg0
  let main_cst : FVec F S_ .f32 := constant S_ .f32 0x7F800000#32
  let main_v1 : FVec F S16x480x64x64 .f32 := broadcastInDim S16x480x64x64 ![] bcast_S_S16x480x64x64 main_cst
  let main_v2 : IVec S16x480x64x64 1 := cmpf .olt main_v0 main_v1
  let main_c : IVec S_ 1 := constantI S_ 1 1#1
  let main_v3 : IVec S_ 1 := (fun x v => Host.reduce IntOp.andi x v reducesTo_S16x480x64x64_S_d0_1_2_3 h_S_) main_v2 main_c
  let main_v4 : FVec F S1x128x1x1 .f32 := Host.absf main_arg1
  let main_cst_0 : FVec F S_ .f32 := constant S_ .f32 0x7F800000#32
  let main_v5 : FVec F S1x128x1x1 .f32 := broadcastInDim S1x128x1x1 ![] bcast_S_S1x128x1x1 main_cst_0
  let main_v6 : IVec S1x128x1x1 1 := cmpf .olt main_v4 main_v5
  let main_c_1 : IVec S_ 1 := constantI S_ 1 1#1
  let main_v7 : IVec S_ 1 := (fun x v => Host.reduce IntOp.andi x v reducesTo_S1x128x1x1_S_d0_1_2_3 h_S_) main_v6 main_c_1
  let main_v8 : IVec S_ 1 := andi main_v3 main_v7
  let main_v9 : FVec F S1x128x1x1 .f32 := Host.absf main_arg2
  let main_cst_2 : FVec F S_ .f32 := constant S_ .f32 0x7F800000#32
  let main_v10 : FVec F S1x128x1x1 .f32 := broadcastInDim S1x128x1x1 ![] bcast_S_S1x128x1x1 main_cst_2
  let main_v11 : IVec S1x128x1x1 1 := cmpf .olt main_v9 main_v10
  let main_c_3 : IVec S_ 1 := constantI S_ 1 1#1
  let main_v12 : IVec S_ 1 := (fun x v => Host.reduce IntOp.andi x v reducesTo_S1x128x1x1_S_d0_1_2_3 h_S_) main_v11 main_c_3
  let main_v13 : IVec S_ 1 := andi main_v8 main_v12
  main_v13
-- ==== Kernel.lean ====
abbrev S16x480x64x64 : Shape := ⟨4, ![16, 480, 64, 64]⟩
abbrev S1x128x1x1 : Shape := ⟨4, ![1, 128, 1, 1]⟩
abbrev S480 : Shape := ⟨1, ![480]⟩
abbrev S16x480 : Shape := ⟨2, ![16, 480]⟩
abbrev S8x480x8x64 : Shape := ⟨4, ![8, 480, 8, 64]⟩
abbrev S8x480 : Shape := ⟨2, ![8, 480]⟩
abbrev S8x480x8 : Shape := ⟨3, ![8, 480, 8]⟩
abbrev S480x16 : Shape := ⟨2, ![480, 16]⟩
abbrev S_ : Shape := ⟨0, ![]⟩
abbrev S128x16 : Shape := ⟨2, ![128, 16]⟩
abbrev S480x1 : Shape := ⟨2, ![480, 1]⟩
abbrev S16x128 : Shape := ⟨2, ![16, 128]⟩
abbrev S16 : Shape := ⟨1, ![16]⟩
abbrev S16x1 : Shape := ⟨2, ![16, 1]⟩
abbrev S128 : Shape := ⟨1, ![128]⟩
abbrev S1x480 : Shape := ⟨2, ![1, 480]⟩
abbrev S16x480x4096 : Shape := ⟨3, ![16, 480, 4096]⟩
abbrev S8x480x512 : Shape := ⟨3, ![8, 480, 512]⟩
abbrev S8x480x1 : Shape := ⟨3, ![8, 480, 1]⟩
abbrev S1x480x1 : Shape := ⟨3, ![1, 480, 1]⟩

abbrev nBuf : Space → Nat
  | .hbm => 62
  | .vmem => 12
  | .smem => 0
  | _ => 0

abbrev bufTy : (tb : Table) → Fin (tcTables nBuf tb) → BufTy
  | .hbm, ⟨0, _⟩ => ⟨S16x480x64x64, .f32⟩
  | .hbm, ⟨1, _⟩ => ⟨S1x128x1x1, .f32⟩
  | .hbm, ⟨2, _⟩ => ⟨S1x128x1x1, .f32⟩
  | .hbm, ⟨3, _⟩ => ⟨S480, .i32⟩
  | .hbm, ⟨4, _⟩ => ⟨S16x480, .f32⟩
  | .hbm, ⟨5, _⟩ => ⟨S480x16, .f32⟩
  | .hbm, ⟨6, _⟩ => ⟨S_, .f32⟩
  | .hbm, ⟨7, _⟩ => ⟨S128x16, .f32⟩
  | .hbm, ⟨8, _⟩ => ⟨S480x1, .i32⟩
  | .hbm, ⟨9, _⟩ => ⟨S128x16, .f32⟩
  | .hbm, ⟨10, _⟩ => ⟨S16x128, .f32⟩
  | .hbm, ⟨11, _⟩ => ⟨S16x128, .f32⟩
  | .hbm, ⟨12, _⟩ => ⟨S_, .f32⟩
  | .hbm, ⟨13, _⟩ => ⟨S16, .f32⟩
  | .hbm, ⟨14, _⟩ => ⟨S16x1, .f32⟩
  | .hbm, ⟨15, _⟩ => ⟨S_, .f32⟩
  | .hbm, ⟨16, _⟩ => ⟨S16x1, .f32⟩
  | .hbm, ⟨17, _⟩ => ⟨S16x1, .f32⟩
  | .hbm, ⟨18, _⟩ => ⟨S_, .f32⟩
  | .hbm, ⟨19, _⟩ => ⟨S16x1, .f32⟩
  | .hbm, ⟨20, _⟩ => ⟨S16x1, .f32⟩
  | .hbm, ⟨21, _⟩ => ⟨S16x128, .f32⟩
  | .hbm, ⟨22, _⟩ => ⟨S16x128, .f32⟩
  | .hbm, ⟨23, _⟩ => ⟨S_, .i32⟩
  | .hbm, ⟨24, _⟩ => ⟨S480, .i32⟩
  | .hbm, ⟨25, _⟩ => ⟨S480, .i1⟩
  | .hbm, ⟨26, _⟩ => ⟨S_, .i32⟩
  | .hbm, ⟨27, _⟩ => ⟨S480, .i32⟩
  | .hbm, ⟨28, _⟩ => ⟨S480, .i32⟩
  | .hbm, ⟨29, _⟩ => ⟨S480, .i32⟩
  | .hbm, ⟨30, _⟩ => ⟨S480x1, .i32⟩
  | .hbm, ⟨31, _⟩ => ⟨S16x480, .f32⟩
  | .hbm, ⟨32, _⟩ => ⟨S128, .f32⟩
  | .hbm, ⟨33, _⟩ => ⟨S128, .f32⟩
  | .hbm, ⟨34, _⟩ => ⟨S_, .i32⟩
  | .hbm, ⟨35, _⟩ => ⟨S480, .i32⟩
  | .hbm, ⟨36, _⟩ => ⟨S480, .i1⟩
  | .hbm, ⟨37, _⟩ => ⟨S_, .i32⟩
  | .hbm, ⟨38, _⟩ => ⟨S480, .i32⟩
  | .hbm, ⟨39, _⟩ => ⟨S480, .i32⟩
  | .hbm, ⟨40, _⟩ => ⟨S480, .i32⟩
  | .hbm, ⟨41, _⟩ => ⟨S480x1, .i32⟩
  | .hbm, ⟨42, _⟩ => ⟨S480, .f32⟩
  | .hbm, ⟨43, _⟩ => ⟨S_, .i32⟩
  | .hbm, ⟨44, _⟩ => ⟨S480, .i32⟩
  | .hbm, ⟨45, _⟩ => ⟨S480, .i1⟩
  | .hbm, ⟨46, _⟩ => ⟨S_, .i32⟩
  | .hbm, ⟨47, _⟩ => ⟨S480, .i32⟩
  | .hbm, ⟨48, _⟩ => ⟨S480, .i32⟩
  | .hbm, ⟨49, _⟩ => ⟨S480, .i32⟩
  | .hbm, ⟨50, _⟩ => ⟨S480x1, .i32⟩
  | .hbm, ⟨51, _⟩ => ⟨S480, .f32⟩
  | .hbm, ⟨52, _⟩ => ⟨S1x480, .f32⟩
  | .hbm, ⟨53, _⟩ => ⟨S16x480, .f32⟩
  | .hbm, ⟨54, _⟩ => ⟨S16x480, .f32⟩
  | .hbm, ⟨55, _⟩ => ⟨S_, .f32⟩
  | .hbm, ⟨56, _⟩ => ⟨S16x480, .f32⟩
  | .hbm, ⟨57, _⟩ => ⟨S16x480, .f32⟩
  | .hbm, ⟨58, _⟩ => ⟨S1x480, .f32⟩
  | .hbm, ⟨59, _⟩ => ⟨S16x480x4096, .f32⟩
  | .hbm, ⟨60, _⟩ => ⟨S16x480x4096, .f32⟩
  | .hbm, ⟨61, _⟩ => ⟨S16x480x64x64, .f32⟩
  | .local _ .vmem, ⟨0, _⟩ => ⟨S8x480x8x64, .f32⟩
  | .local _ .vmem, ⟨1, _⟩ => ⟨S8x480x8x64, .f32⟩
  | .local _ .vmem, ⟨2, _⟩ => ⟨S8x480, .f32⟩
  | .local _ .vmem, ⟨3, _⟩ => ⟨S8x480, .f32⟩
  | .local _ .vmem, ⟨4, _⟩ => ⟨S8x480, .f32⟩
  | .local _ .vmem, ⟨5, _⟩ => ⟨S8x480x512, .f32⟩
  | .local _ .vmem, ⟨6, _⟩ => ⟨S8x480x512, .f32⟩
  | .local _ .vmem, ⟨7, _⟩ => ⟨S8x480, .f32⟩
  | .local _ .vmem, ⟨8, _⟩ => ⟨S8x480, .f32⟩
  | .local _ .vmem, ⟨9, _⟩ => ⟨S1x480, .f32⟩
  | .local _ .vmem, ⟨10, _⟩ => ⟨S8x480x512, .f32⟩
  | .local _ .vmem, ⟨11, _⟩ => ⟨S8x480x512, .f32⟩
  | _, _ => ⟨S16x480x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_c_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_5 : Ref sig .tc := ⟨.hbm, 34, rfl⟩
abbrev main_v24 : Ref sig .tc := ⟨.hbm, 35, rfl⟩
abbrev main_v25 : Ref sig .tc := ⟨.hbm, 36, rfl⟩
abbrev main_c_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_7 : Ref sig .tc := ⟨.hbm, 43, rfl⟩
abbrev main_v31 : Ref sig .tc := ⟨.hbm, 44, rfl⟩
abbrev main_v32 : Ref sig .tc := ⟨.hbm, 45, rfl⟩
abbrev main_c_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_9 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x480x8x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x480 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![2, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S8x480x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x480 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1x480 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S8x480x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S8x480_S8x480_0_0 : ∀ a, (![0, 0] : Fin 2 → Nat) a + S8x480.size a ≤ S8x480.size a
  h_S8x480 : 0 < S8x480.numel
  shapeCasts_S8x480_S8x480 : S8x480.ShapeCasts S8x480
  inb_S8x480x8x64_S8x480x8x64_0_0_0_0 : ∀ a, (![0, 0, 0, 0] : Fin 4 → Nat) a + S8x480x8x64.size a ≤ S8x480x8x64.size a
  h_S8x480x8x64 : 0 < S8x480x8x64.numel
  reduces_S8x480x8x64_S8x480x8 : S8x480x8x64.Reduces [3] S8x480x8
  reduces_S8x480x8_S8x480 : S8x480x8.Reduces [2] S8x480
  transposes_S16x480_S480x16_1_0 : S16x480.Transposes [1, 0] S480x16
  bcast_S_S128x16 : S_.BroadcastsInDim S128x16 (![] : Fin 0 → Fin S128x16.rank)
  bcast_S480_S480x1_0 : S480.BroadcastsInDim S480x1 (![0] : Fin 1 → Fin S480x1.rank)
  transposes_S128x16_S16x128_1_0 : S128x16.Transposes [1, 0] S16x128
  reducesTo_S16x128_S16_d1 : S16x128.ReducesTo [1] S16
  h_S_ : 0 < S_.numel
  bcast_S16_S16x1_0 : S16.BroadcastsInDim S16x1 (![0] : Fin 1 → Fin S16x1.rank)
  bcast_S_S16x1 : S_.BroadcastsInDim S16x1 (![] : Fin 0 → Fin S16x1.rank)
  bcast_S16x1_S16x128_0_1 : S16x1.BroadcastsInDim S16x128 (![0, 1] : Fin 2 → Fin S16x128.rank)
  bcast_S_S480 : S_.BroadcastsInDim S480 (![] : Fin 0 → Fin S480.rank)
  shapeCasts_S1x128x1x1_S128 : S1x128x1x1.ShapeCasts S128
  bcast_S480_S1x480_1 : S480.BroadcastsInDim S1x480 (![1] : Fin 1 → Fin S1x480.rank)
  bcast_S1x480_S16x480_0_1 : S1x480.BroadcastsInDim S16x480 (![0, 1] : Fin 2 → Fin S16x480.rank)
  bcast_S_S16x480 : S_.BroadcastsInDim S16x480 (![] : Fin 0 → Fin S16x480.rank)
  shapeCasts_S16x480x64x64_S16x480x4096 : S16x480x64x64.ShapeCasts S16x480x4096
  inb_S8x480x512_S8x480x512_0_0_0 : ∀ a, (![0, 0, 0] : Fin 3 → Nat) a + S8x480x512.size a ≤ S8x480x512.size a
  h_S8x480x512 : 0 < S8x480x512.numel
  shapeCasts_S8x480x512_S8x480x512 : S8x480x512.ShapeCasts S8x480x512
  inb_S1x480_S1x480_0_0 : ∀ a, (![0, 0] : Fin 2 → Nat) a + S1x480.size a ≤ S1x480.size a
  h_S1x480 : 0 < S1x480.numel
  shapeCasts_S1x480_S1x480 : S1x480.ShapeCasts S1x480
  shapeCasts_S8x480_S8x480x1 : S8x480.ShapeCasts S8x480x1
  broadcasts_S8x480x1_S8x480x512 : S8x480x1.Broadcasts S8x480x512
  shapeCasts_S1x480_S1x480x1 : S1x480.ShapeCasts S1x480x1
  broadcasts_S1x480x1_S8x480x512 : S1x480x1.Broadcasts S8x480x512
  shapeCasts_S16x480x4096_S16x480x64x64 : S16x480x4096.ShapeCasts S16x480x64x64
  scatter_S128x16_S480x1_S480x16_1_0_0_1_wf : ScatterDims.WF S128x16 S480x1 S480x16 [1] [0] [0] 1
  gather_S16x128_S480x1_S16x480_0_1_n_n_1_1_161_wf : GatherDims.WF S16x128 S480x1 S16x480 [0] [1] [] [1] [] 1 ![16, 1]
  gather_S128_S480x1_S480_n_0_n_n_0_1_1_wf : GatherDims.WF S128 S480x1 S480 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x480x8x64.size a ≤ S16x480x64x64.size a
  hwx0_0 : ∀ i : grid0.Coords, EltTy.bits .f32 = 32 ∨ (Rect.block (s := S16x480x64x64) S8x480x8x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x480.size a ≤ S16x480.size a
  hwx0_1 : ∀ i : grid0.Coords, EltTy.bits .f32 = 32 ∨ (Rect.block (s := S16x480) S8x480.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x480x512.size a ≤ S16x480x4096.size a
  hwx1_0 : ∀ i : grid1.Coords, EltTy.bits .f32 = 32 ∨ (Rect.block (s := S16x480x4096) S8x480x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x480.size a ≤ S16x480.size a
  hwx1_1 : ∀ i : grid1.Coords, EltTy.bits .f32 = 32 ∨ (Rect.block (s := S16x480) S8x480.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x480.size a ≤ S1x480.size a
  hwx1_2 : ∀ i : grid1.Coords, EltTy.bits .f32 = 32 ∨ (Rect.block (s := S1x480) S1x480.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x480x512.size a ≤ S16x480x4096.size a
  hwx1_3 : ∀ i : grid1.Coords, EltTy.bits .f32 = 32 ∨ (Rect.block (s := S16x480x4096) S8x480x512.size (cc1_transform_3 i) (hinb1_3 i)).WholeWords (EltTy.packing .f32)

variable [Facts₀]

def scatter_S128x16_S480x1_S480x16_1_0_0_1 : ScatterDims S128x16 S480x1 S480x16 where
  updateWindowDims := [1]
  insertedWindowDims := [0]
  scatterDimsToOperandDims := [0]
  indexVectorDim := 1
  wf := scatter_S128x16_S480x1_S480x16_1_0_0_1_wf
def gather_S16x128_S480x1_S16x480_0_1_n_n_1_1_161 : GatherDims S16x128 S480x1 S16x480 where
  offsetDims := [0]
  collapsedSliceDims := [1]
  operandBatchingDims := []
  startIndicesBatchingDims := []
  startIndexMap := [1]
  indexVectorDim := 1
  sliceSizes := ![16, 1]
  wf := gather_S16x128_S480x1_S16x480_0_1_n_n_1_1_161_wf
def gather_S128_S480x1_S480_n_0_n_n_0_1_1 : GatherDims S128 S480x1 S480 where
  offsetDims := []
  collapsedSliceDims := [0]
  operandBatchingDims := []
  startIndicesBatchingDims := []
  startIndexMap := [0]
  indexVectorDim := 1
  sliceSizes := ![1]
  wf := gather_S128_S480x1_S480_n_0_n_n_0_1_1_wf

abbrev win0_0 : Pipeline.Window sig grid0 :=
  Pipeline.Window.ofSpec (Memref.whole main_arg0) S8x480x8x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x480.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v44) S8x480x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S8x480.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S1x480.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S8x480x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16x480x64x64 : Shape := ⟨4, ![16, 480, 64, 64]⟩
abbrev S1x128x1x1 : Shape := ⟨4, ![1, 128, 1, 1]⟩
abbrev S480 : Shape := ⟨1, ![480]⟩
abbrev S_ : Shape := ⟨0, ![]⟩
abbrev S16x480 : Shape := ⟨2, ![16, 480]⟩
abbrev S480x16 : Shape := ⟨2, ![480, 16]⟩
abbrev S128x16 : Shape := ⟨2, ![128, 16]⟩
abbrev S480x1 : Shape := ⟨2, ![480, 1]⟩
abbrev S16x128 : Shape := ⟨2, ![16, 128]⟩
abbrev S16 : Shape := ⟨1, ![16]⟩
abbrev S16x1 : Shape := ⟨2, ![16, 1]⟩
abbrev S16x480x1x1 : Shape := ⟨4, ![16, 480, 1, 1]⟩
abbrev S1x480x1x1 : Shape := ⟨4, ![1, 480, 1, 1]⟩

abbrev nBuf : Space → Nat
  | .hbm => 60
  | .vmem => 0
  | .smem => 0
  | _ => 0

abbrev bufTy : (tb : Table) → Fin (tcTables nBuf tb) → BufTy
  | .hbm, ⟨0, _⟩ => ⟨S16x480x64x64, .f32⟩
  | .hbm, ⟨1, _⟩ => ⟨S1x128x1x1, .f32⟩
  | .hbm, ⟨2, _⟩ => ⟨S1x128x1x1, .f32⟩
  | .hbm, ⟨3, _⟩ => ⟨S480, .i32⟩
  | .hbm, ⟨4, _⟩ => ⟨S16x480x64x64, .f32⟩
  | .hbm, ⟨5, _⟩ => ⟨S_, .f32⟩
  | .hbm, ⟨6, _⟩ => ⟨S16x480, .f32⟩
  | .hbm, ⟨7, _⟩ => ⟨S480x16, .f32⟩
  | .hbm, ⟨8, _⟩ => ⟨S_, .f32⟩
  | .hbm, ⟨9, _⟩ => ⟨S128x16, .f32⟩
  | .hbm, ⟨10, _⟩ => ⟨S480x1, .i32⟩
  | .hbm, ⟨11, _⟩ => ⟨S128x16, .f32⟩
  | .hbm, ⟨12, _⟩ => ⟨S16x128, .f32⟩
  | .hbm, ⟨13, _⟩ => ⟨S16x128, .f32⟩
  | .hbm, ⟨14, _⟩ => ⟨S_, .f32⟩
  | .hbm, ⟨15, _⟩ => ⟨S16, .f32⟩
  | .hbm, ⟨16, _⟩ => ⟨S16x1, .f32⟩
  | .hbm, ⟨17, _⟩ => ⟨S_, .f32⟩
  | .hbm, ⟨18, _⟩ => ⟨S16x1, .f32⟩
  | .hbm, ⟨19, _⟩ => ⟨S16x1, .f32⟩
  | .hbm, ⟨20, _⟩ => ⟨S_, .f32⟩
  | .hbm, ⟨21, _⟩ => ⟨S16x1, .f32⟩
  | .hbm, ⟨22, _⟩ => ⟨S16x1, .f32⟩
  | .hbm, ⟨23, _⟩ => ⟨S16x128, .f32⟩
  | .hbm, ⟨24, _⟩ => ⟨S16x128, .f32⟩
  | .hbm, ⟨25, _⟩ => ⟨S_, .i32⟩
  | .hbm, ⟨26, _⟩ => ⟨S480, .i32⟩
  | .hbm, ⟨27, _⟩ => ⟨S480, .i1⟩
  | .hbm, ⟨28, _⟩ => ⟨S_, .i32⟩
  | .hbm, ⟨29, _⟩ => ⟨S480, .i32⟩
  | .hbm, ⟨30, _⟩ => ⟨S480, .i32⟩
  | .hbm, ⟨31, _⟩ => ⟨S480, .i32⟩
  | .hbm, ⟨32, _⟩ => ⟨S480x1, .i32⟩
  | .hbm, ⟨33, _⟩ => ⟨S16x480, .f32⟩
  | .hbm, ⟨34, _⟩ => ⟨S16x480x1x1, .f32⟩
  | .hbm, ⟨35, _⟩ => ⟨S_, .i32⟩
  | .hbm, ⟨36, _⟩ => ⟨S480, .i32⟩
  | .hbm, ⟨37, _⟩ => ⟨S480, .i1⟩
  | .hbm, ⟨38, _⟩ => ⟨S_, .i32⟩
  | .hbm, ⟨39, _⟩ => ⟨S480, .i32⟩
  | .hbm, ⟨40, _⟩ => ⟨S480, .i32⟩
  | .hbm, ⟨41, _⟩ => ⟨S480, .i32⟩
  | .hbm, ⟨42, _⟩ => ⟨S480x1, .i32⟩
  | .hbm, ⟨43, _⟩ => ⟨S1x480x1x1, .f32⟩
  | .hbm, ⟨44, _⟩ => ⟨S_, .i32⟩
  | .hbm, ⟨45, _⟩ => ⟨S480, .i32⟩
  | .hbm, ⟨46, _⟩ => ⟨S480, .i1⟩
  | .hbm, ⟨47, _⟩ => ⟨S_, .i32⟩
  | .hbm, ⟨48, _⟩ => ⟨S480, .i32⟩
  | .hbm, ⟨49, _⟩ => ⟨S480, .i32⟩
  | .hbm, ⟨50, _⟩ => ⟨S480, .i32⟩
  | .hbm, ⟨51, _⟩ => ⟨S480x1, .i32⟩
  | .hbm, ⟨52, _⟩ => ⟨S1x480x1x1, .f32⟩
  | .hbm, ⟨53, _⟩ => ⟨S16x480x64x64, .f32⟩
  | .hbm, ⟨54, _⟩ => ⟨S16x480x64x64, .f32⟩
  | .hbm, ⟨55, _⟩ => ⟨S16x480x64x64, .f32⟩
  | .hbm, ⟨56, _⟩ => ⟨S16x480x64x64, .f32⟩
  | .hbm, ⟨57, _⟩ => ⟨S16x480x64x64, .f32⟩
  | .hbm, ⟨58, _⟩ => ⟨S16x480x64x64, .f32⟩
  | .hbm, ⟨59, _⟩ => ⟨S16x480x64x64, .f32⟩
  | _, _ => ⟨S16x480x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_c_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_6 : Ref sig .tc := ⟨.hbm, 35, rfl⟩
abbrev main_v24 : Ref sig .tc := ⟨.hbm, 36, rfl⟩
abbrev main_v25 : Ref sig .tc := ⟨.hbm, 37, rfl⟩
abbrev main_c_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_8 : Ref sig .tc := ⟨.hbm, 44, rfl⟩
abbrev main_v31 : Ref sig .tc := ⟨.hbm, 45, rfl⟩
abbrev main_v32 : Ref sig .tc := ⟨.hbm, 46, rfl⟩
abbrev main_c_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]

class Facts₀ : Prop where
  reducesTo_S16x480x64x64_S16x480_d2_3 : S16x480x64x64.ReducesTo [2, 3] S16x480
  h_S_ : 0 < S_.numel
  transposes_S16x480_S480x16_1_0 : S16x480.Transposes [1, 0] S480x16
  bcast_S_S128x16 : S_.BroadcastsInDim S128x16 (![] : Fin 0 → Fin S128x16.rank)
  bcast_S480_S480x1_0 : S480.BroadcastsInDim S480x1 (![0] : Fin 1 → Fin S480x1.rank)
  transposes_S128x16_S16x128_1_0 : S128x16.Transposes [1, 0] S16x128
  reducesTo_S16x128_S16_d1 : S16x128.ReducesTo [1] S16
  bcast_S16_S16x1_0 : S16.BroadcastsInDim S16x1 (![0] : Fin 1 → Fin S16x1.rank)
  bcast_S_S16x1 : S_.BroadcastsInDim S16x1 (![] : Fin 0 → Fin S16x1.rank)
  bcast_S16x1_S16x128_0_1 : S16x1.BroadcastsInDim S16x128 (![0, 1] : Fin 2 → Fin S16x128.rank)
  bcast_S_S480 : S_.BroadcastsInDim S480 (![] : Fin 0 → Fin S480.rank)
  bcast_S16x480_S16x480x1x1_0_1 : S16x480.BroadcastsInDim S16x480x1x1 (![0, 1] : Fin 2 → Fin S16x480x1x1.rank)
  bcast_S16x480x1x1_S16x480x64x64_0_1_2_3 : S16x480x1x1.BroadcastsInDim S16x480x64x64 (![0, 1, 2, 3] : Fin 4 → Fin S16x480x64x64.rank)
  bcast_S1x480x1x1_S16x480x64x64_0_1_2_3 : S1x480x1x1.BroadcastsInDim S16x480x64x64 (![0, 1, 2, 3] : Fin 4 → Fin S16x480x64x64.rank)
  scatter_S128x16_S480x1_S480x16_1_0_0_1_wf : ScatterDims.WF S128x16 S480x1 S480x16 [1] [0] [0] 1
  gather_S16x128_S480x1_S16x480_0_1_n_n_1_1_161_wf : GatherDims.WF S16x128 S480x1 S16x480 [0] [1] [] [1] [] 1 ![16, 1]
  gather_S1x128x1x1_S480x1_S1x480x1x1_023_1_n_n_1_1_1111_wf : GatherDims.WF S1x128x1x1 S480x1 S1x480x1x1 [0, 2, 3] [1] [] [1] [] 1 ![1, 1, 1, 1]

variable [Facts₀]

def scatter_S128x16_S480x1_S480x16_1_0_0_1 : ScatterDims S128x16 S480x1 S480x16 where
  updateWindowDims := [1]
  insertedWindowDims := [0]
  scatterDimsToOperandDims := [0]
  indexVectorDim := 1
  wf := scatter_S128x16_S480x1_S480x16_1_0_0_1_wf
def gather_S16x128_S480x1_S16x480_0_1_n_n_1_1_161 : GatherDims S16x128 S480x1 S16x480 where
  offsetDims := [0]
  collapsedSliceDims := [1]
  operandBatchingDims := []
  startIndicesBatchingDims := []
  startIndexMap := [1]
  indexVectorDim := 1
  sliceSizes := ![16, 1]
  wf := gather_S16x128_S480x1_S16x480_0_1_n_n_1_1_161_wf
def gather_S1x128x1x1_S480x1_S1x480x1x1_023_1_n_n_1_1_1111 : GatherDims S1x128x1x1 S480x1 S1x480x1x1 where
  offsetDims := [0, 2, 3]
  collapsedSliceDims := [1]
  operandBatchingDims := []
  startIndicesBatchingDims := []
  startIndexMap := [1]
  indexVectorDim := 1
  sliceSizes := ![1, 1, 1, 1]
  wf := gather_S1x128x1x1_S480x1_S1x480x1x1_023_1_n_n_1_1_1111_wf

class Facts : Prop extends Facts₀ where

variable [Facts]
-- ==== Proof.RefRun.lean ====
/-
  The reference program's run, read back as ONE function of its three arguments.

  The reference computes, from x : f32[16,480,64,64] and two per-field vectors g, b : f32[1,128,1,1]:
  the per-(batch, channel) sums of squares of x over the image; from those a per-(batch, channel)
  normaliser (sum over the channels of a field, square root, division by the mean over the fields
  plus a small constant, read back per channel through the channel-to-field table); and then
      out = g[field c] * (x * N[b, c]) + b[field c] + x .
  Here the straight line of operations is listed, the program is shown equal to that line, and every
  fair execution is shown to end with the last buffer holding `result x g b` and the arguments unchanged.
-/
import proofs.«411428_j71322226918038_3_alg».proof.Proof.Gen.ReferenceIdeal
import Idealize.ShloMosaic.Lib.StableHlo.Run

noncomputable section

namespace Cert.ReferenceIdeal.HandRun

open Cert.ReferenceIdeal Idealize.ShloMosaic Idealize.ShloMosaic.TcCoe Idealize.SL.Sem Idealize.ShloMosaic.StableHlo
open Cert.ReferenceIdeal.Facts₀

variable {F : FTy → Type} [FloatOps F]

/-- the channel-to-field table as the program's first constant holds it -/
abbrev segTab : (⟨S480, .i32⟩ : BufTy).Contents (Elt F) := fun i => lit0 (S480.rowMajor i)

/-- per (batch, channel): the sum over the image of the squares -/
def sumsq (x : (⟨S16x480x64x64, .f32⟩ : BufTy).Contents (Elt F)) : (⟨S16x480, .f32⟩ : BufTy).Contents (Elt F) :=
  Host.reduceAdd (mulf x x) (constant S_ .f32 0x00000000#32) reducesTo_S16x480x64x64_S16x480_d2_3 h_S_

/-- the gather index vector: the table with negative entries wrapped by 128, as a column -/
def wrapIdx (seg : (⟨S480, .i32⟩ : BufTy).Contents (Elt F)) : (⟨S480x1, .i32⟩ : BufTy).Contents (Elt F) :=
  broadcastInDim S480x1 ![0] bcast_S480_S480x1_0
    (select (cmpi .slt seg (broadcastInDim S480 ![] bcast_S_S480 (constantI S_ 32 0#32)))
      (addi seg (broadcastInDim S480 ![] bcast_S_S480 (constantI S_ 32 128#32))) seg)

/-- the shared host chain, from the table and the sums of squares `ss`: per field the sum of `ss` over the
    field's channels (a scatter-add into zeros, on the transposed array), its square root `r[b, f]`, the
    mean of `r[b, ·]` over the 128 fields plus a small constant, the quotient `r / (mean + eps)`, and that
    quotient read back per channel through the wrapped table. -/
def fieldNorm (seg : (⟨S480, .i32⟩ : BufTy).Contents (Elt F)) (ss : (⟨S16x480, .f32⟩ : BufTy).Contents (Elt F)) :
    (⟨S16x480, .f32⟩ : BufTy).Contents (Elt F) :=
  Host.gather gather_S16x128_S480x1_S16x480_0_1_n_n_1_1_161
    (Host.divf
      (Host.sqrt (transpose S16x128 [1, 0]
        (Host.scatterAdd scatter_S128x16_S480x1_S480x16_1_0_0_1
          (broadcastInDim S128x16 ![] bcast_S_S128x16 (constant S_ .f32 0x00000000#32))
          (broadcastInDim S480x1 ![0] bcast_S480_S480x1_0 seg)
          (transpose S480x16 [1, 0] ss transposes_S16x480_S480x16_1_0))
        transposes_S128x16_S16x128_1_0))
      (broadcastInDim S16x128 ![0, 1] bcast_S16x1_S16x128_0_1
        (addf
          (Host.divf
            (broadcastInDim S16x1 ![0] bcast_S16_S16x1_0
              (Host.reduceAdd
                (Host.sqrt (transpose S16x128 [1, 0]
                  (Host.scatterAdd scatter_S128x16_S480x1_S480x16_1_0_0_1
                    (broadcastInDim S128x16 ![] bcast_S_S128x16 (constant S_ .f32 0x00000000#32))
                    (broadcastInDim S480x1 ![0] bcast_S480_S480x1_0 seg)
                    (transpose S480x16 [1, 0] ss transposes_S16x480_S480x16_1_0))
                  transposes_S128x16_S16x128_1_0))
                (constant S_ .f32 0x00000000#32) reducesTo_S16x128_S16_d1 h_S_))
            (broadcastInDim S16x1 ![] bcast_S_S16x1 (constant S_ .f32 0x43000000#32)))
          (broadcastInDim S16x1 ![] bcast_S_S16x1 (constant S_ .f32 0x358637BD#32)))))
    (wrapIdx seg)

/-- the reference's result as a function of the three arguments -/
def result (x : (⟨S16x480x64x64, .f32⟩ : BufTy).Contents (Elt F)) (g b : (⟨S1x128x1x1, .f32⟩ : BufTy).Contents (Elt F)) :
    (⟨S16x480x64x64, .f32⟩ : BufTy).Contents (Elt F) :=
  addf (addf (mulf (broadcastInDim S16x480x64x64 ![0, 1, 2, 3] bcast_S1x480x1x1_S16x480x64x64_0_1_2_3 (Host.gather gather_S1x128x1x1_S480x1_S1x480x1x1_023_1_n_n_1_1_1111 g (wrapIdx (F := F) segTab)))
      (mulf x (broadcastInDim S16x480x64x64 ![0, 1, 2, 3] bcast_S16x480x1x1_S16x480x64x64_0_1_2_3 (broadcastInDim S16x480x1x1 ![0, 1] bcast_S16x480_S16x480x1x1_0_1 (fieldNorm segTab (sumsq x))))))
    (broadcastInDim S16x480x64x64 ![0, 1, 2, 3] bcast_S1x480x1x1_S16x480x64x64_0_1_2_3 (Host.gather gather_S1x128x1x1_S480x1_S1x480x1x1_023_1_n_n_1_1_1111 b (wrapIdx (F := F) segTab)))) x

/-- the program's 57 operations, in order -/
abbrev ops : List (HloOp τ sig (Elt F)) :=
  [ nullary main_c (fun i => lit0 (S480.rowMajor i)),
    binary main_arg0 main_arg0 main_v0 (mulf : (⟨S16x480x64x64, .f32⟩ : BufTy).Contents (Elt F) → (⟨S16x480x64x64, .f32⟩ : BufTy).Contents (Elt F) → (⟨S16x480x64x64, .f32⟩ : BufTy).Contents (Elt F)),
    nullary main_cst (constant S_ .f32 0x00000000#32),
    binary main_v0 main_cst main_v1 ((fun x v => Host.reduceAdd x v reducesTo_S16x480x64x64_S16x480_d2_3 h_S_) : (⟨S16x480x64x64, .f32⟩ : BufTy).Contents (Elt F) → (⟨S_, .f32⟩ : BufTy).Contents (Elt F) → (⟨S16x480, .f32⟩ : BufTy).Contents (Elt F)),
    unary main_v1 main_v2 ((transpose S480x16 [1, 0] · transposes_S16x480_S480x16_1_0) : (⟨S16x480, .f32⟩ : BufTy).Contents (Elt F) → (⟨S480x16, .f32⟩ : BufTy).Contents (Elt F)),
    nullary main_cst_0 (constant S_ .f32 0x00000000#32),
    unary main_cst_0 main_v3 (broadcastInDim S128x16 ![] bcast_S_S128x16 : (⟨S_, .f32⟩ : BufTy).Contents (Elt F) → (⟨S128x16, .f32⟩ : BufTy).Contents (Elt F)),
    unary main_c main_v4 (broadcastInDim S480x1 ![0] bcast_S480_S480x1_0 : (⟨S480, .i32⟩ : BufTy).Contents (Elt F) → (⟨S480x1, .i32⟩ : BufTy).Contents (Elt F)),
    ternary main_v3 main_v4 main_v2 main_v5 ((fun x i u => Host.scatterAdd scatter_S128x16_S480x1_S480x16_1_0_0_1 x i u) : (⟨S128x16, .f32⟩ : BufTy).Contents (Elt F) → (⟨S480x1, .i32⟩ : BufTy).Contents (Elt F) → (⟨S480x16, .f32⟩ : BufTy).Contents (Elt F) → (⟨S128x16, .f32⟩ : BufTy).Contents (Elt F)),
    unary main_v5 main_v6 ((transpose S16x128 [1, 0] · transposes_S128x16_S16x128_1_0) : (⟨S128x16, .f32⟩ : BufTy).Contents (Elt F) → (⟨S16x128, .f32⟩ : BufTy).Contents (Elt F)),
    unary main_v6 main_v7 (Host.sqrt : (⟨S16x128, .f32⟩ : BufTy).Contents (Elt F) → (⟨S16x128, .f32⟩ : BufTy).Contents (Elt F)),
    nullary main_cst_1 (constant S_ .f32 0x00000000#32),
    binary main_v7 main_cst_1 main_v8 ((fun x v => Host.reduceAdd x v reducesTo_S16x128_S16_d1 h_S_) : (⟨S16x128, .f32⟩ : BufTy).Contents (Elt F) → (⟨S_, .f32⟩ : BufTy).Contents (Elt F) → (⟨S16, .f32⟩ : BufTy).Contents (Elt F)),
    unary main_v8 main_v9 (broadcastInDim S16x1 ![0] bcast_S16_S16x1_0 : (⟨S16, .f32⟩ : BufTy).Contents (Elt F) → (⟨S16x1, .f32⟩ : BufTy).Contents (Elt F)),
    nullary main_cst_2 (constant S_ .f32 0x43000000#32),
    unary main_cst_2 main_v10 (broadcastInDim S16x1 ![] bcast_S_S16x1 : (⟨S_, .f32⟩ : BufTy).Contents (Elt F) → (⟨S16x1, .f32⟩ : BufTy).Contents (Elt F)),
    binary main_v9 main_v10 main_v11 (Host.divf : (⟨S16x1, .f32⟩ : BufTy).Contents (Elt F) → (⟨S16x1, .f32⟩ : BufTy).Contents (Elt F) → (⟨S16x1, .f32⟩ : BufTy).Contents (Elt F)),
    nullary main_cst_3 (constant S_ .f32 0x358637BD#32),
    unary main_cst_3 main_v12 (broadcastInDim S16x1 ![] bcast_S_S16x1 : (⟨S_, .f32⟩ : BufTy).Contents (Elt F) → (⟨S16x1, .f32⟩ : BufTy).Contents (Elt F)),
    binary main_v11 main_v12 main_v13 (addf : (⟨S16x1, .f32⟩ : BufTy).Contents (Elt F) → (⟨S16x1, .f32⟩ : BufTy).Contents (Elt F) → (⟨S16x1, .f32⟩ : BufTy).Contents (Elt F)),
    unary main_v13 main_v14 (broadcastInDim S16x128 ![0, 1] bcast_S16x1_S16x128_0_1 : (⟨S16x1, .f32⟩ : BufTy).Contents (Elt F) → (⟨S16x128, .f32⟩ : BufTy).Contents (Elt F)),
    binary main_v7 main_v14 main_v15 (Host.divf : (⟨S16x128, .f32⟩ : BufTy).Contents (Elt F) → (⟨S16x128, .f32⟩ : BufTy).Contents (Elt F) → (⟨S16x128, .f32⟩ : BufTy).Contents (Elt F)),
    nullary main_c_4 (constantI S_ 32 0#32),
    unary main_c_4 main_v16 (broadcastInDim S480 ![] bcast_S_S480 : (⟨S_, .i32⟩ : BufTy).Contents (Elt F) → (⟨S480, .i32⟩ : BufTy).Contents (Elt F)),
    binary main_c main_v16 main_v17 (cmpi .slt : (⟨S480, .i32⟩ : BufTy).Contents (Elt F) → (⟨S480, .i32⟩ : BufTy).Contents (Elt F) → (⟨S480, .i1⟩ : BufTy).Contents (Elt F)),
    nullary main_c_5 (constantI S_ 32 128#32),
    unary main_c_5 main_v18 (broadcastInDim S480 ![] bcast_S_S480 : (⟨S_, .i32⟩ : BufTy).Contents (Elt F) → (⟨S480, .i32⟩ : BufTy).Contents (Elt F)),
    binary main_c main_v18 main_v19 (addi : (⟨S480, .i32⟩ : BufTy).Contents (Elt F) → (⟨S480, .i32⟩ : BufTy).Contents (Elt F) → (⟨S480, .i32⟩ : BufTy).Contents (Elt F)),
    ternary main_v17 main_v19 main_c main_v20 (select : (⟨S480, .i1⟩ : BufTy).Contents (Elt F) → (⟨S480, .i32⟩ : BufTy).Contents (Elt F) → (⟨S480, .i32⟩ : BufTy).Contents (Elt F) → (⟨S480, .i32⟩ : BufTy).Contents (Elt F)),
    unary main_v20 main_v21 (broadcastInDim S480x1 ![0] bcast_S480_S480x1_0 : (⟨S480, .i32⟩ : BufTy).Contents (Elt F) → (⟨S480x1, .i32⟩ : BufTy).Contents (Elt F)),
    binary main_v15 main_v21 main_v22 ((fun x i => Host.gather gather_S16x128_S480x1_S16x480_0_1_n_n_1_1_161 x i) : (⟨S16x128, .f32⟩ : BufTy).Contents (Elt F) → (⟨S480x1, .i32⟩ : BufTy).Contents (Elt F) → (⟨S16x480, .f32⟩ : BufTy).Contents (Elt F)),
    unary main_v22 main_v23 (broadcastInDim S16x480x1x1 ![0, 1] bcast_S16x480_S16x480x1x1_0_1 : (⟨S16x480, .f32⟩ : BufTy).Contents (Elt F) → (⟨S16x480x1x1, .f32⟩ : BufTy).Contents (Elt F)),
    nullary main_c_6 (constantI S_ 32 0#32),
    unary main_c_6 main_v24 (broadcastInDim S480 ![] bcast_S_S480 : (⟨S_, .i32⟩ : BufTy).Contents (Elt F) → (⟨S480, .i32⟩ : BufTy).Contents (Elt F)),
    binary main_c main_v24 main_v25 (cmpi .slt : (⟨S480, .i32⟩ : BufTy).Contents (Elt F) → (⟨S480, .i32⟩ : BufTy).Contents (Elt F) → (⟨S480, .i1⟩ : BufTy).Contents (Elt F)),
    nullary main_c_7 (constantI S_ 32 128#32),
    unary main_c_7 main_v26 (broadcastInDim S480 ![] bcast_S_S480 : (⟨S_, .i32⟩ : BufTy).Contents (Elt F) → (⟨S480, .i32⟩ : BufTy).Contents (Elt F)),
    binary main_c main_v26 main_v27 (addi : (⟨S480, .i32⟩ : BufTy).Contents (Elt F) → (⟨S480, .i32⟩ : BufTy).Contents (Elt F) → (⟨S480, .i32⟩ : BufTy).Contents (Elt F)),
    ternary main_v25 main_v27 main_c main_v28 (select : (⟨S480, .i1⟩ : BufTy).Contents (Elt F) → (⟨S480, .i32⟩ : BufTy).Contents (Elt F) → (⟨S480, .i32⟩ : BufTy).Contents (Elt F) → (⟨S480, .i32⟩ : BufTy).Contents (Elt F)),
    unary main_v28 main_v29 (broadcastInDim S480x1 ![0] bcast_S480_S480x1_0 : (⟨S480, .i32⟩ : BufTy).Contents (Elt F) → (⟨S480x1, .i32⟩ : BufTy).Contents (Elt F)),
    binary main_arg1 main_v29 main_v30 ((fun x i => Host.gather gather_S1x128x1x1_S480x1_S1x480x1x1_023_1_n_n_1_1_1111 x i) : (⟨S1x128x1x1, .f32⟩ : BufTy).Contents (Elt F) → (⟨S480x1, .i32⟩ : BufTy).Contents (Elt F) → (⟨S1x480x1x1, .f32⟩ : BufTy).Contents (Elt F)),
    nullary main_c_8 (constantI S_ 32 0#32),
    unary main_c_8 main_v31 (broadcastInDim S480 ![] bcast_S_S480 : (⟨S_, .i32⟩ : BufTy).Contents (Elt F) → (⟨S480, .i32⟩ : BufTy).Contents (Elt F)),
    binary main_c main_v31 main_v32 (cmpi .slt : (⟨S480, .i32⟩ : BufTy).Contents (Elt F) → (⟨S480, .i32⟩ : BufTy).Contents (Elt F) → (⟨S480, .i1⟩ : BufTy).Contents (Elt F)),
    nullary main_c_9 (constantI S_ 32 128#32),
    unary main_c_9 main_v33 (broadcastInDim S480 ![] bcast_S_S480 : (⟨S_, .i32⟩ : BufTy).Contents (Elt F) → (⟨S480, .i32⟩ : BufTy).Contents (Elt F)),
    binary main_c main_v33 main_v34 (addi : (⟨S480, .i32⟩ : BufTy).Contents (Elt F) → (⟨S480, .i32⟩ : BufTy).Contents (Elt F) → (⟨S480, .i32⟩ : BufTy).Contents (Elt F)),
    ternary main_v32 main_v34 main_c main_v35 (select : (⟨S480, .i1⟩ : BufTy).Contents (Elt F) → (⟨S480, .i32⟩ : BufTy).Contents (Elt F) → (⟨S480, .i32⟩ : BufTy).Contents (Elt F) → (⟨S480, .i32⟩ : BufTy).Contents (Elt F)),
    unary main_v35 main_v36 (broadcastInDim S480x1 ![0] bcast_S480_S480x1_0 : (⟨S480, .i32⟩ : BufTy).Contents (Elt F) → (⟨S480x1, .i32⟩ : BufTy).Contents (Elt F)),
    binary main_arg2 main_v36 main_v37 ((fun x i => Host.gather gather_S1x128x1x1_S480x1_S1x480x1x1_023_1_n_n_1_1_1111 x i) : (⟨S1x128x1x1, .f32⟩ : BufTy).Contents (Elt F) → (⟨S480x1, .i32⟩ : BufTy).Contents (Elt F) → (⟨S1x480x1x1, .f32⟩ : BufTy).Contents (Elt F)),
    unary main_v23 main_v38 (broadcastInDim S16x480x64x64 ![0, 1, 2, 3] bcast_S16x480x1x1_S16x480x64x64_0_1_2_3 : (⟨S16x480x1x1, .f32⟩ : BufTy).Contents (Elt F) → (⟨S16x480x64x64, .f32⟩ : BufTy).Contents (Elt F)),
    binary main_arg0 main_v38 main_v39 (mulf : (⟨S16x480x64x64, .f32⟩ : BufTy).Contents (Elt F) → (⟨S16x480x64x64, .f32⟩ : BufTy).Contents (Elt F) → (⟨S16x480x64x64, .f32⟩ : BufTy).Contents (Elt F)),
    unary main_v30 main_v40 (broadcastInDim S16x480x64x64 ![0, 1, 2, 3] bcast_S1x480x1x1_S16x480x64x64_0_1_2_3 : (⟨S1x480x1x1, .f32⟩ : BufTy).Contents (Elt F) → (⟨S16x480x64x64, .f32⟩ : BufTy).Contents (Elt F)),
    binary main_v40 main_v39 main_v41 (mulf : (⟨S16x480x64x64, .f32⟩ : BufTy).Contents (Elt F) → (⟨S16x480x64x64, .f32⟩ : BufTy).Contents (Elt F) → (⟨S16x480x64x64, .f32⟩ : BufTy).Contents (Elt F)),
    unary main_v37 main_v42 (broadcastInDim S16x480x64x64 ![0, 1, 2, 3] bcast_S1x480x1x1_S16x480x64x64_0_1_2_3 : (⟨S1x480x1x1, .f32⟩ : BufTy).Contents (Elt F) → (⟨S16x480x64x64, .f32⟩ : BufTy).Contents (Elt F)),
    binary main_v41 main_v42 main_v43 (addf : (⟨S16x480x64x64, .f32⟩ : BufTy).Contents (Elt F) → (⟨S16x480x64x64, .f32⟩ : BufTy).Contents (Elt F) → (⟨S16x480x64x64, .f32⟩ : BufTy).Contents (Elt F)),
    binary main_v43 main_arg0 main_v44 (addf : (⟨S16x480x64x64, .f32⟩ : BufTy).Contents (Elt F) → (⟨S16x480x64x64, .f32⟩ : BufTy).Contents (Elt F) → (⟨S16x480x64x64, .f32⟩ : BufTy).Contents (Elt F)) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., binary_bufs_sub .., nullary_bufs_sub .., binary_bufs_sub .., unary_bufs_sub .., nullary_bufs_sub .., unary_bufs_sub .., unary_bufs_sub .., ternary_bufs_sub .., unary_bufs_sub .., unary_bufs_sub .., nullary_bufs_sub .., binary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., unary_bufs_sub .., binary_bufs_sub .., unary_bufs_sub .., binary_bufs_sub .., binary_bufs_sub ..⟩

set_option maxRecDepth 8192 in
set_option maxHeartbeats 4000000 in
/-- On the one device, for any float values, from any memory with zero counters: every weakly fair execution of
    the program terminates with the last buffer at `result` of the three arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v44) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v44).trans (by unfold result fieldNorm sumsq wrapIdx; after_results_simp <;> rfl),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.HandRun

end
-- ==== Proof.RefValue.lean ====
/-
  The reference's result read at one index.

  At (i0, i1, i2, i3) the result is
      g[field i1] * (x[i0,i1,i2,i3] * N[i0,i1]) + b[field i1] + x[i0,i1,i2,i3],
  where N is the per-(batch, channel) normaliser and `field i1` is the row of the per-field vectors
  that channel i1 reads: the table's entry for the channel, wrapped when negative, read as a signed
  integer and clamped into [0, 127] as a gather clamps its start indices.

  Three things are read at an index: a sum or product of arrays (the sum or product of the elements),
  an array spread along new or unit axes (the operand at the coordinates on the kept axes, 0 on a unit
  axis), and a gather of single elements along the field axis (the operand at the clamped start index).
-/
import proofs.«411428_j71322226918038_3_alg».proof.Proof.RefRun
import Idealize.ShloMosaic.Lib.ValueIdx

noncomputable section

namespace Cert.ReferenceIdeal.HandRun

open Cert.ReferenceIdeal Idealize.ShloMosaic Idealize.ShloMosaic.ValueIdx
open Cert.ReferenceIdeal.Facts₀

/-- the field a channel reads, as the gather computes it: the wrapped table entry, read signed, clamped to [0, 127] -/
def fieldOf (c : Fin 480) : Fin 128 :=
  ⟨min ((wrapIdx (F := Ideal) segTab) (ValueIdx.ix2 c (0 : Fin 1))).toInt.toNat 127, by omega⟩

section Layout
variable {α : Type}

/-- A per-channel array [1,480,1,1] spread over [16,480,64,64] reads, at (i0,i1,i2,i3), its entry for channel i1:
    the three other axes of the operand have one element. -/
theorem spread_channel (h : S1x480x1x1.BroadcastsInDim S16x480x64x64 (![0, 1, 2, 3] : Fin 4 → Fin S16x480x64x64.rank))
    (X : S1x480x1x1.Idx → α) (i0 : Fin 16) (i1 : Fin 480) (i2 i3 : Fin 64) :
    broadcastInDim S16x480x64x64 ![0, 1, 2, 3] h X (ix4 i0 i1 i2 i3) = X (ix4 (0 : Fin 1) i1 (0 : Fin 1) (0 : Fin 1)) := by
  unfold broadcastInDim
  congr 1
  funext a
  match a with
  | ⟨0, _⟩ => rfl
  | ⟨1, _⟩ => rfl
  | ⟨2, _⟩ => rfl
  | ⟨3, _⟩ => rfl

/-- A per-(batch, channel) array [16,480,1,1] spread over [16,480,64,64] reads, at (i0,i1,i2,i3), its entry (i0,i1,0,0). -/
theorem spread_image (h : S16x480x1x1.BroadcastsInDim S16x480x64x64 (![0, 1, 2, 3] : Fin 4 → Fin S16x480x64x64.rank))
    (Y : S16x480x1x1.Idx → α) (i0 : Fin 16) (i1 : Fin 480) (i2 i3 : Fin 64) :
    broadcastInDim S16x480x64x64 ![0, 1, 2, 3] h Y (ix4 i0 i1 i2 i3) = Y (ix4 i0 i1 (0 : Fin 1) (0 : Fin 1)) := by
  unfold broadcastInDim
  congr 1
  funext a
  match a with
  | ⟨0, _⟩ => rfl
  | ⟨1, _⟩ => rfl
  | ⟨2, _⟩ => rfl
  | ⟨3, _⟩ => rfl

/-- A [16,480] array given two trailing unit axes reads, at (i0,i1,0,0), its entry (i0,i1). -/
theorem unit_axes (h : S16x480.BroadcastsInDim S16x480x1x1 (![0, 1] : Fin 2 → Fin S16x480x1x1.rank))
    (N : S16x480.Idx → α) (i0 : Fin 16) (i1 : Fin 480) :
    broadcastInDim S16x480x1x1 ![0, 1] h N (ix4 i0 i1 (0 : Fin 1) (0 : Fin 1)) = N (ix2 i0 i1) := by
  unfold broadcastInDim
  congr 1
  funext a
  match a with
  | ⟨0, _⟩ => rfl
  | ⟨1, _⟩ => rfl

/-- THE GATHER OF SINGLE ELEMENTS ALONG THE FIELD AXIS, read at channel `c`: the operand [1,128,1,1] at the field
    the start index `idx[c, 0]` names, read signed and clamped into [0, 127]. The operand's other three axes have
    one element, so their coordinate is 0 whatever the dimension numbers say; on the field axis the slice has size
    one, nothing is batched, and the axis is collapsed, so the coordinate is the clamped start alone. -/
theorem gather_field (g : S1x128x1x1.Idx → α) (idx : IVec S480x1 32) (c : Fin 480) :
    Host.gather gather_S1x128x1x1_S480x1_S1x480x1x1_023_1_n_n_1_1_1111 g idx (ix4 (0 : Fin 1) c (0 : Fin 1) (0 : Fin 1))
      = g (ix4 (0 : Fin 1) (⟨min (idx (ix2 c (0 : Fin 1))).toInt.toNat 127, by omega⟩ : Fin 128) (0 : Fin 1) (0 : Fin 1)) := by
  unfold Host.gather
  congr 1
  funext a
  match a with
  | ⟨0, h0⟩ =>
    refine Fin.ext ?_
    exact Nat.lt_one_iff.mp (gather_S1x128x1x1_S480x1_S1x480x1x1_023_1_n_n_1_1_1111.operandIdx
      (ix4 (0 : Fin 1) c (0 : Fin 1) (0 : Fin 1)) idx ⟨0, h0⟩).isLt
  | ⟨2, h2⟩ =>
    refine Fin.ext ?_
    exact Nat.lt_one_iff.mp (gather_S1x128x1x1_S480x1_S1x480x1x1_023_1_n_n_1_1_1111.operandIdx
      (ix4 (0 : Fin 1) c (0 : Fin 1) (0 : Fin 1)) idx ⟨2, h2⟩).isLt
  | ⟨3, h3⟩ =>
    refine Fin.ext ?_
    exact Nat.lt_one_iff.mp (gather_S1x128x1x1_S480x1_S1x480x1x1_023_1_n_n_1_1_1111.operandIdx
      (ix4 (0 : Fin 1) c (0 : Fin 1) (0 : Fin 1)) idx ⟨3, h3⟩).isLt
  | ⟨1, h1⟩ =>
    refine Fin.ext ?_
    show gather_S1x128x1x1_S480x1_S1x480x1x1_023_1_n_n_1_1_1111.start (ix4 (0 : Fin 1) c (0 : Fin 1) (0 : Fin 1)) idx ⟨1, h1⟩
        + gather_S1x128x1x1_S480x1_S1x480x1x1_023_1_n_n_1_1_1111.batchCoord (ix4 (0 : Fin 1) c (0 : Fin 1) (0 : Fin 1)) ⟨1, h1⟩
        + gather_S1x128x1x1_S480x1_S1x480x1x1_023_1_n_n_1_1_1111.offCoord (ix4 (0 : Fin 1) c (0 : Fin 1) (0 : Fin 1)) ⟨1, h1⟩
        = min (idx (ix2 c (0 : Fin 1))).toInt.toNat 127
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨1, h1⟩ : Fin S1x128x1x1.rank) ∈ gather_S1x128x1x1_S480x1_S1x480x1x1_023_1_n_n_1_1_1111.startIndexMap
      from List.mem_singleton.mpr rfl)]
    have hsi : gather_S1x128x1x1_S480x1_S1x480x1x1_023_1_n_n_1_1_1111.siIdx (ix4 (0 : Fin 1) c (0 : Fin 1) (0 : Fin 1))
        ⟨List.idxOf (⟨1, h1⟩ : Fin S1x128x1x1.rank) gather_S1x128x1x1_S480x1_S1x480x1x1_023_1_n_n_1_1_1111.startIndexMap,
          List.idxOf_lt_length_iff.2 (List.mem_singleton.mpr rfl)⟩ = ix2 c (0 : Fin 1) := by
      funext b; refine Fin.ext ?_
      match b with
      | ⟨0, _⟩ => rfl
      | ⟨1, _⟩ => rfl
    rw [hsi]
    rfl

end Layout

/-- THE RESULT AT AN INDEX: the field's scale times (the input times the channel's normaliser), plus the field's
    shift, plus the input. -/
theorem result_apply (x : FVec Ideal S16x480x64x64 .f32) (g b : FVec Ideal S1x128x1x1 .f32) (i0 : Fin 16) (i1 : Fin 480) (i2 i3 : Fin 64) :
    result (F := Ideal) x g b (ValueIdx.ix4 i0 i1 i2 i3)
      = g (ValueIdx.ix4 0 (fieldOf i1) 0 0) * (x (ValueIdx.ix4 i0 i1 i2 i3) * fieldNorm (F := Ideal) segTab (sumsq x) (ValueIdx.ix2 i0 i1))
        + b (ValueIdx.ix4 0 (fieldOf i1) 0 0) + x (ValueIdx.ix4 i0 i1 i2 i3) := by
  unfold result
  rw [addf_apply, addf_apply, mulf_apply, mulf_apply, spread_channel, spread_channel, spread_image, unit_axes,
    gather_field, gather_field]
  rfl

end Cert.ReferenceIdeal.HandRun

end
-- ==== Proof.Algebra.lean ====
/-
  Two facts about the extended reals that join the two programs.

  1. For a REAL x and any extended reals n, g, b:   x · (n · g + 1) + b  =  g · (x · n) + b + x.
     The kernel scales x by (n·g + 1) and adds the shift; the reference forms g·(x·n), adds the shift, then adds x back.
     Multiplication on the extended reals is commutative and associative; distributing x over (n·g + 1) is sound
     because x is finite (a finite factor times ±∞ keeps an infinite value that absorbs the finite summand x).

  2. Under the precondition that every input is finite, each entry of the input x is a real number: the
     precondition's first conjunct says |x| < +∞ at every index.
-/
import proofs.«411428_j71322226918038_3_alg».proof.Proof.Gen.Pre_finite_inputs
import Idealize.ShloMosaic.Lib.ReduceAll
import Idealize.ShloMosaic.Lib.ValueIdx
import Idealize.ShloMosaic.PureOps.Ideal.Laws
import Mathlib.Data.EReal.Operations

noncomputable section

namespace Cert.Bridge

open Idealize.ShloMosaic

/-- A real factor distributes over "an extended real plus one". -/
theorem real_mul_add_one (x : ℝ) (y : EReal) : (x : EReal) * (y + 1) = x * y + x := by
  rcases lt_trichotomy x 0 with hx | hx | hx
  · induction y using EReal.rec with
    | bot => rw [EReal.bot_add, EReal.coe_mul_bot_of_neg hx, EReal.top_add_coe]
    | coe y => norm_cast; ring
    | top =>
      rw [show (1 : EReal) = ((1 : ℝ) : EReal) from rfl, EReal.top_add_coe, EReal.coe_mul_top_of_neg hx, EReal.bot_add]
  · subst hx; simp
  · induction y using EReal.rec with
    | bot => rw [EReal.bot_add, EReal.coe_mul_bot_of_pos hx, EReal.bot_add]
    | coe y => norm_cast; ring
    | top =>
      rw [show (1 : EReal) = ((1 : ℝ) : EReal) from rfl, EReal.top_add_coe, EReal.coe_mul_top_of_pos hx, EReal.top_add_coe]

/-- The kernel's form of the result equals the reference's, entry by entry, when x is real. -/
theorem affine_forms (x : ℝ) (n g b : EReal) : (x : EReal) * (n * g + 1) + b = g * (x * n) + b + x := by
  rw [real_mul_add_one, add_right_comm, mul_comm n g, mul_left_comm]

/-- Under the precondition, every entry of the first input is a real number: the precondition's first conjunct is
    "|x| < +∞ at every index", and an extended real whose absolute value is below +∞ is neither infinity. -/
theorem input_real (x : FVec Ideal Cert.Pre_finite_inputs.S16x480x64x64 .f32) (g b : FVec Ideal Cert.Pre_finite_inputs.S1x128x1x1 .f32)
    (h : Cert.Pre_finite_inputs.fn (F := Ideal) x g b = fun _ => 1#1) (i : Cert.Pre_finite_inputs.S16x480x64x64.Idx) :
    ∃ r : ℝ, x i = (r : EReal) := by
  have h0 := congrFun h ValueIdx.ix0
  dsimp only [Cert.Pre_finite_inputs.fn] at h0
  obtain ⟨h1, -⟩ := IntOp.andi_eq_one.1 h0
  obtain ⟨hx, -⟩ := IntOp.andi_eq_one.1 h1
  haveI : Subsingleton Cert.Pre_finite_inputs.S_.Idx := ⟨fun a b => funext fun d => d.elim0⟩
  have hi := Host.reduce_andi_all _ _ _ _ ValueIdx.ix0 hx i
  have e : cmpf CmpFPredicate.olt (Host.absf x)
        (broadcastInDim Cert.Pre_finite_inputs.S16x480x64x64 ![] Cert.Pre_finite_inputs.Facts.bcast_S_S16x480x64x64
          (constant Cert.Pre_finite_inputs.S_ FTy.f32 0x7F800000#32)) i
      = Ideal.cmp .olt (max (x i) (-(x i))) (Ideal.ofBits .f32 0x7F800000#32) := rfl
  rw [e, show Ideal.ofBits .f32 0x7F800000#32 = (⊤ : EReal) from by simp [Ideal.ofBits, Ideal.ieee]] at hi
  have hlt : max (x i) (-(x i)) < (⊤ : EReal) := by
    by_contra hn
    simp [Ideal.cmp, hn] at hi
  have hne_top : x i ≠ ⊤ := fun e => by rw [e] at hlt; simp at hlt
  have hne_bot : x i ≠ ⊥ := fun e => by rw [e] at hlt; simp at hlt
  exact ⟨(x i).toReal, (EReal.coe_toReal hne_top hne_bot).symm⟩

end Cert.Bridge

end
-- ==== Proof.Ideal.SumSq.lean ====
/-
  The first pallas_call of the kernel: the per-(batch, channel) sum of squares over the image,
      ss[b, c] = Σ_{h, w} x[b, c, h, w]²,
  on a 2 × 8 grid. Grid point t = 8·p + q sees the block of x of batch rows 8p … 8p+7 and image rows 8q … 8q+7
  (8 × 480 × 8 × 64) and adds, for each of its 8 × 480 (batch, channel) pairs, the sum of the block's 8 × 64 squares
  into an 8 × 480 accumulator that lives in a scratch buffer ACROSS grid points: the accumulator is cleared when
  q = 0 and copied into the result's block after every point; the result's block (batch rows 8p … 8p+7) is
  written back after q = 7.

  So the scratch after point t holds  acc(t) = step(block t, if q = 0 then zeros else acc(t − 1)),  with
  step(X, a) = a + Σ_rows Σ_lanes X²  (the body's payload), and the region's invariant before point t + 1 holds
  the scratch at acc(t). This module states that recursion, the body's triple in its two cases (q = 0 and q ≠ 0),
  the invariant, the pipeline's proof data and the body obligation at every grid point, all at a parameter V,
  the buffer contents when the region is entered.
-/
import proofs.«411428_j71322226918038_3_alg».proof.Proof.Gen.KernelIdeal.Launch
import proofs.«411428_j71322226918038_3_alg».proof.Proof.Gen.KernelIdeal.Skeleton
import proofs.«411428_j71322226918038_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.SumSq

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The block of x a grid point sees -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of x is in its staging buffer at every point (it is fetched at each). -/
theorem before_x {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's branch: is this the first image-row block of its batch block? -/

/-- The body's test `q = 0` on the second grid coordinate, as the program computes it. -/
abbrev isFirst (i : grid0.Coords) : Prop :=
  (Scalar.cmpi .ne (Scalar.extui (Scalar.cmpi .eq (BitVec.ofNat 32 (i 1).val) 0#32)) 0#32) = 1#1

/-- Over the 16 grid points it holds exactly at the points t ≡ 0 (mod 8). -/
theorem hFirst : ∀ t : Fin cfg0.N, isFirst (grid0.coords t) ↔ t.val % 8 = 0 :=
  (by decide +kernel : ∀ t : Fin grid0.N, isFirst (grid0.coords t) ↔ t.val % 8 = 0)

/-! ## The body's triple, case by case -/

/-- Every index of a shape lies in the rectangle that starts at the origin and has the shape's own extents. -/
theorem mem_unit_zero {S : Shape} {off : Fin S.rank → Nat} (h : off = fun _ => 0) (inb : ∀ a, off a + S.size a ≤ S.size a)
    (y : S.Idx) : y ∈ (Rect.unit off S.size inb).set := by
  subst h; show y ∈ (Rect.whole S).set; rw [Rect.set_whole]; exact Finset.mem_univ y

set_option maxHeartbeats 1000000 in
/-- q ≠ 0: with the block of x at x0 and the scratch at s, the body leaves step(x0, s) in the scratch and in the
    result's staging buffer, x0 untouched. -/
theorem sound_acc (c : Dev nD) (E : Set ℕ) (i : grid0.Coords) (arg2 : Memref sig .tc .vmem S8x480x8x64 .f32) (harg2 : arg2.IsWhole)
    (arg3 : Memref sig .tc .vmem S8x480 .f32) (harg3 : arg3.IsWhole) (arg4 : Memref sig .tc .vmem S8x480 .f32) (harg4 : arg4.IsWhole)
    (hc : ¬ isFirst i) (x0 : Vec F S8x480x8x64 .f32) (s : Vec F S8x480 .f32) (K : PUnit → sProp 𝕄) :
    iprop(owns (c : Thread nD τ) arg2 fullShare x0 ∗ (∃ d, owns (c : Thread nD τ) arg3 fullShare d) ∗ owns (c : Thread nD τ) arg4 fullShare s
        ∗ (iprop(owns (c : Thread nD τ) arg2 fullShare x0 ∗ owns (c : Thread nD τ) arg3 fullShare (k0_pay2 x0 s)
            ∗ owns (c : Thread nD τ) arg4 fullShare (k0_pay2 x0 s)) -∗ K ⟨⟩))
      ⊢ wp frame (wpE (defs₀ (F := F)) Variants.none c none) E (cc0__sumsq_kernel i arg2 harg2 arg3 harg3 arg4 harg4) K := by
  simp only [cc0__sumsq_kernel_eq_skeleton]; unfold cc0__sumsq_kernel_skel
  unfold owns
  iintro ⟨⟨%f0, %hf0, H0⟩, ⟨%d1, %f1, -, H1⟩, ⟨%fs, %hfs, HS⟩, Hk⟩
  obtain rfl := harg2.eq_unread hf0; obtain rfl := harg4.eq_unread hfs
  sl_exec (disch := exact hc)
  sl_step
  iapply Hk
  have hz2 : (![0, 0] : Fin 2 → Nat) = fun _ => 0 := by funext a; fin_cases a <;> rfl
  have hz4 : (![0, 0, 0, 0] : Fin 4 → Nat) = fun _ => 0 := by funext a; fin_cases a <;> rfl
  isplitl [H0]
  · iexists _; isplitr; · ipureintro; exact harg2.read_unread _
    iexact H0
  isplitl [H1]
  · iexists _; isplitr
    swap; · iexact H1
    ipureintro
    sl_unfold_words
    rw [View.read_writes_eq_canon _ _ _ (View.cover_of_tiled _ S8x480.size (by rfl)), View.canon_unit_zero hz2]
    simp only [View.readAt_eq_ld, harg2.read_unread, harg4.read_unread, View.ld_unit_zero (S := S8x480x8x64) hz4,
      View.ld_unit_zero (S := S8x480) hz2, View.readCov_unit_zero (S := S8x480) _ hz2]
  iexists _; isplitr
  swap; · iexact HS
  ipureintro
  sl_unfold_words
  rw [View.read_writes_eq_canon _ _ _ (View.cover_of_tiled _ S8x480.size (by rfl)), View.canon_unit_zero hz2]
  simp only [View.readAt_eq_ld, harg2.read_unread, harg4.read_unread, View.ld_unit_zero (S := S8x480x8x64) hz4,
    View.ld_unit_zero (S := S8x480) hz2]

set_option maxHeartbeats 1000000 in
/-- q = 0: with the block of x at x0 and the scratch at anything, the body clears the scratch and leaves
    step(x0, zeros) in it and in the result's staging buffer, x0 untouched. -/
theorem sound_reset (c : Dev nD) (E : Set ℕ) (i : grid0.Coords) (arg2 : Memref sig .tc .vmem S8x480x8x64 .f32) (harg2 : arg2.IsWhole)
    (arg3 : Memref sig .tc .vmem S8x480 .f32) (harg3 : arg3.IsWhole) (arg4 : Memref sig .tc .vmem S8x480 .f32) (harg4 : arg4.IsWhole)
    (hc : isFirst i) (x0 : Vec F S8x480x8x64 .f32) (K : PUnit → sProp 𝕄) :
    iprop(owns (c : Thread nD τ) arg2 fullShare x0 ∗ (∃ d, owns (c : Thread nD τ) arg3 fullShare d) ∗ (∃ d, owns (c : Thread nD τ) arg4 fullShare d)
        ∗ (iprop(owns (c : Thread nD τ) arg2 fullShare x0 ∗ owns (c : Thread nD τ) arg3 fullShare (k0_pay2 x0 k0_pay1)
            ∗ owns (c : Thread nD τ) arg4 fullShare (k0_pay2 x0 k0_pay1)) -∗ K ⟨⟩))
      ⊢ wp frame (wpE (defs₀ (F := F)) Variants.none c none) E (cc0__sumsq_kernel i arg2 harg2 arg3 harg3 arg4 harg4) K := by
  simp only [cc0__sumsq_kernel_eq_skeleton]; unfold cc0__sumsq_kernel_skel
  unfold owns
  iintro ⟨⟨%f0, %hf0, H0⟩, ⟨%d1, %f1, -, H1⟩, ⟨%ds, %fs, -, HS⟩, Hk⟩
  obtain rfl := harg2.eq_unread hf0
  sl_exec (disch := exact hc)
  sl_step
  iapply Hk
  have hz2 : (![0, 0] : Fin 2 → Nat) = fun _ => 0 := by funext a; fin_cases a <;> rfl
  have hz4 : (![0, 0, 0, 0] : Fin 4 → Nat) = fun _ => 0 := by funext a; fin_cases a <;> rfl
  isplitl [H0]
  · iexists _; isplitr; · ipureintro; exact harg2.read_unread _
    iexact H0
  isplitl [H1]
  · iexists _; isplitr
    swap; · iexact H1
    ipureintro
    sl_unfold_words
    rw [View.read_writes_eq_canon _ _ _ (View.cover_of_tiled _ S8x480.size (by rfl)), View.canon_unit_zero hz2,
      View.readCov_eq_canon_ld _ _ _ (fun y => ⟨_, List.mem_cons_self, mem_unit_zero (S := S8x480) hz2 inb_S8x480_S8x480_0_0 y⟩),
      View.canon_cons_unit_zero hz2, View.ld_unit_zero hz2]
    simp only [View.readAt_eq_ld, harg2.read_unread, View.ld_unit_zero (S := S8x480x8x64) hz4,
      View.ld_unit_zero (S := S8x480) hz2, View.readCov_unit_zero (S := S8x480) _ hz2]
  iexists _; isplitr
  swap; · iexact HS
  ipureintro
  sl_unfold_words
  rw [View.read_writes_eq_canon _ _ _ (fun y => ⟨_, List.mem_cons_self, mem_unit_zero (S := S8x480) hz2 inb_S8x480_S8x480_0_0 y⟩), View.canon_cons_unit_zero hz2]
  simp only [View.readAt_eq_ld, harg2.read_unread, View.ld_unit_zero (S := S8x480x8x64) hz4,
    View.ld_unit_zero (S := S8x480) hz2, View.readCov_unit_zero (S := S8x480) _ hz2]

/-! ## The accumulator, point by point -/

/-- What the scratch (and the result's staging buffer) holds after the body at grid position `n`: the body's
    step applied to the point's block of x and to zeros at a point with q = 0, to what the point before left
    otherwise. -/
def accAt (c : Dev nD) : (n : ℕ) → n < cfg0.N → Vec F S8x480 .f32
  | 0, hn => k0_pay2 (iblk V c 0 ⟨0, hn⟩) k0_pay1
  | n + 1, hn =>
    if (n + 1) % 8 = 0 then k0_pay2 (iblk V c 0 ⟨n + 1, hn⟩) k0_pay1
    else k0_pay2 (iblk V c 0 ⟨n + 1, hn⟩) (accAt c n (Nat.lt_of_succ_lt hn))

/-- At a point with q = 0 the accumulator restarts from zeros. -/
theorem accAt_first (c : Dev nD) (t : Fin cfg0.N) (h : t.val % 8 = 0) :
    accAt V c t.val t.isLt = k0_pay2 (iblk V c 0 t) k0_pay1 := by
  obtain ⟨n, hn⟩ := t
  cases n with
  | zero => rfl
  | succ n => exact if_pos h

/-- At a point with q ≠ 0 it continues from what the point before left. -/
theorem accAt_next (c : Dev nD) (t : Fin cfg0.N) (h : ¬ t.val % 8 = 0) :
    accAt V c t.val t.isLt = k0_pay2 (iblk V c 0 t) (accAt V c (t.val - 1) (Nat.lt_of_le_of_lt (Nat.sub_le _ _) t.isLt)) := by
  obtain ⟨n, hn⟩ := t
  cases n with
  | zero => exact absurd (Nat.zero_mod _) h
  | succ n => exact if_neg h

/-! ## The region's invariant: the scratch carried between points -/

/-- The accumulator's scratch buffer, whole. -/
abbrev scM : Memref sig .tc .vmem S8x480 .f32 := Memref.whole cc0_scratch0

/-- The core's other scoped buffers (the second pallas_call's staging buffers), each whole at some contents: this
    region never touches them. -/
abbrev otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The plain invariant (every scoped buffer that is no staging buffer of this call at anything, and the generator
    register) with the scratch split off as a memref owned at some contents. -/
theorem PhiA_eq (c : Dev nD) :
    (Pipeline.ΦA spec0 c : sProp 𝕄)
      = iprop(((∃ d, owns (c : Thread nD τ) scM fullShare d) ∗ otherScoped c) ∗ (∃ r, prngReg c r)) := by
  unfold Pipeline.ΦA; rw [scopedRest0_eq]; simp only [scM, owns_whole]; try rfl

/-- The invariant before grid position `n`: before the first point the plain one (the scratch at anything);
    afterwards the same with the scratch at what the point before left, `accAt (n − 1)`. -/
def PhiS (c : Dev nD) : (n : ℕ) → n ≤ cfg0.N → sProp 𝕄
  | 0, _ => Pipeline.ΦA spec0 c
  | n + 1, hn => iprop((owns (c : Thread nD τ) scM fullShare (accAt V c n hn) ∗ otherScoped c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) scM fullShare (accAt V c n hn) ∗ otherScoped c) ∗ (∃ r, prngReg c r)) := rfl

theorem PhiS_pos (c : Dev nD) (n : ℕ) (h : n ≤ cfg0.N) (hz : n ≠ 0) :
    PhiS V c n h = iprop((owns (c : Thread nD τ) scM fullShare (accAt V c (n - 1) (by omega)) ∗ otherScoped c) ∗ (∃ r, prngReg c r)) := by
  cases n with
  | zero => exact absurd rfl hz
  | succ n => rfl

/-! ## The pipeline's proof data -/

/-- The proof data of the sum-of-squares pass on core `c`: the arrays as the region finds them; after the body at
    point `t` the input's buffer at its block and the result's at the accumulator `accAt t`; the invariant `PhiS`;
    nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => accAt V c t.val t.isLt
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_x (c : Dev nD) (t : Fin cfg0.N) : (dat V c).after 0 t = iblk V c 0 t := by dsimp only [dat]
theorem after_acc (c : Dev nD) (t : Fin cfg0.N) : (dat V c).after 1 t = accAt V c t.val t.isLt := by dsimp only [dat]

theorem before0 (c : Dev nD) (t : Fin cfg0.N) (d) : (dat V c).before 0 t d = iblk V c 0 t :=
  before_x V (dat V c) (A_eq V c 0) (after_x V c) t d

/-! ## The body obligation -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t))

set_option maxHeartbeats 2000000 in
/-- The body at any point. The invariant hands it the scratch — at anything before the very first point, at what
    the point before left afterwards — and takes it back at this point's accumulator; which of the two triples
    applies is decided by q = 0 (t ≡ 0 mod 8). The other scoped buffers, the generator register and the core's
    dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0]
  rw [show (dat V c).owesAt () t.succ = (dat V c).owesAt () t.castSucc from rfl,
    show (dat V c).Φ t.succ = PhiS V c (t.val + 1) t.isLt from rfl, PhiS_succ, after_x, after_acc]
  by_cases h0 : t.val % 8 = 0
  · rw [accAt_first V c t h0]
    by_cases hz : t.val = 0
    · rw [PhiS_castSucc V c t, PhiS_zero V c _ _ hz, PhiA_eq]
      iintro ⟨⟨⟨HS, HR⟩, Hg⟩, Ho, ⟨%d0, H0⟩, ⟨%d1, H1⟩⟩
      iapply (sound_reset c Set.univ (grid0.coords t) _ _ _ _ _ _ ((hFirst t).mpr h0) (iblk V c 0 t) _)
      isplitl [H0]; · iexact H0
      isplitl [H1]; · iexists _; iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      iexact H1
    · rw [PhiS_castSucc V c t, PhiS_pos V c _ _ hz]
      iintro ⟨⟨⟨HS, HR⟩, Hg⟩, Ho, ⟨%d0, H0⟩, ⟨%d1, H1⟩⟩
      iapply (sound_reset c Set.univ (grid0.coords t) _ _ _ _ _ _ ((hFirst t).mpr h0) (iblk V c 0 t) _)
      isplitl [H0]; · iexact H0
      isplitl [H1]; · iexists _; iexact H1
      isplitl [HS]; · iexists _; iexact HS
      iintro ⟨H0, H1, HS⟩
      isplitl [HS HR Hg]
      · isplitl [HS HR]
        · isplitl [HS]; · iexact HS
          iexact HR
        iexact Hg
      isplitl [Ho]; · iexact Ho
      isplitl [H0]; · iexact H0
      iexact H1
  · rw [accAt_next V c t h0]
    have hz : t.val ≠ 0 := fun h => h0 (by rw [h])
    rw [PhiS_castSucc V c t, PhiS_pos V c _ _ hz]
    iintro ⟨⟨⟨HS, HR⟩, Hg⟩, Ho, ⟨%d0, H0⟩, ⟨%d1, H1⟩⟩
    iapply (sound_acc c Set.univ (grid0.coords t) _ _ _ _ _ _ (fun h => h0 ((hFirst t).mp h)) (iblk V c 0 t) _ _)
    isplitl [H0]; · iexact H0
    isplitl [H1]; · iexists _; iexact H1
    isplitl [HS]; · iexact HS
    iintro ⟨H0, H1, HS⟩
    isplitl [HS HR Hg]
    · isplitl [HS HR]
      · isplitl [HS]; · iexact HS
        iexact HR
      iexact Hg
    isplitl [Ho]; · iexact Ho
    isplitl [H0]; · iexact H0
    iexact H1

/-- The library's body obligation, at every point. -/
theorem body_obligation (c : Dev nD) : BodyObligation (dat (F := F) V c) (defs₀ (F := F)) Variants.none () Set.univ := fun t => by
  rw [bigSep_W0, bigSep_W0]
  exact sound_body V c t

/-! ## Entering and leaving the region -/

/-- The plain invariant is the invariant before the first point. -/
theorem hin (c : Dev nD) : Pipeline.ΦA spec0 c ⊢ (dat V c).Φ 0 := by
  rw [show (dat V c).Φ 0 = PhiS V c 0 (Nat.zero_le _) from rfl, PhiS_zero V c 0 _ rfl]

/-- After the last point the invariant gives the plain one back: what the scratch holds is forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 16 := N_0; omega), PhiA_eq]
  iintro ⟨⟨HS, HR⟩, Hg⟩
  isplitl [HS HR]
  · isplitl [HS]; · iexists _; iexact HS
    iexact HR
  iexact Hg

end Cert.KernelIdeal.SumSq

end
-- ==== Proof.Ideal.Affine.lean ====
/-
  The second pallas_call of the kernel: the affine pass  out[b, c, j] = x[b, c, j] · scale[b, c] + shift[0, c]
  over the flattened image axis j < 4096, on a 2 × 8 grid of blocks of 8 batch rows and 512 image positions.

  Each grid point sees a block of x (8 × 480 × 512), the 8 × 480 block of per-(batch, channel) scales of its batch
  rows, and the whole 1 × 480 row of shifts; it stores one whole 8 × 480 × 512 block of the result. The body keeps
  nothing between points, so the region's invariant is the plain one (the scoped rest and the generator register).

  Stated at a parameter V, the buffer contents when the region is entered: the block each window shows at a point,
  what the body leaves in the result's staging buffer as a function of the three input blocks, the body's triple,
  the pipeline's proof data, and the body obligation at every grid point.
-/
import proofs.«411428_j71322226918038_3_alg».proof.Proof.Gen.KernelIdeal.Launch
import proofs.«411428_j71322226918038_3_alg».proof.Proof.Gen.KernelIdeal.Skeleton
import proofs.«411428_j71322226918038_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Affine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows show -/

/-- Window `w`'s block at grid point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of x is in its staging buffer at every point (it is fetched at each). -/
theorem before_x {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The block of scales is in its staging buffer at every point: fetched when the batch block changes, and left in
    place by the body in between, where the block index has not moved. -/
theorem before_scale {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The row of shifts is in its staging buffer at every point: fetched once, its block index constant. -/
theorem before_shift {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body reads and writes -/

/-- The whole block of x, and of the result. -/
abbrev rX : Rect S8x480x512 := Rect.unit (s := S8x480x512) ![0, 0, 0] S8x480x512.size inb_S8x480x512_S8x480x512_0_0_0
/-- The whole block of scales. -/
abbrev rS : Rect S8x480 := Rect.unit (s := S8x480) ![0, 0] S8x480.size inb_S8x480_S8x480_0_0
/-- The whole row of shifts. -/
abbrev rT : Rect S1x480 := Rect.unit (s := S1x480) ![0, 0] S1x480.size inb_S1x480_S1x480_0_0

/-- The result block the body stores, from the three input blocks: x · scale + shift, the scale and the shift
    broadcast along the image axis (the body's one store, over the whole block). -/
def outBlk (x0 : Vec F S8x480x512 .f32) (x1 : Vec F S8x480 .f32) (x2 : Vec F S1x480 .f32) : Vec F S8x480x512 .f32 :=
  View.canon [⟨rX, k1_pay1 (View.ld x0 rX) (View.ld x1 rS) (View.ld x2 rT)⟩]

/-- The one store covers the result block. -/
theorem cover_out (p0 : Vec F S8x480x512 .f32) (y : S8x480x512.Idx) :
    ∃ pc ∈ ([⟨rX, p0⟩] : List (View.Piece (Elt F) S8x480x512 .f32)), y ∈ pc.1.set :=
  View.cover_of_tiled [⟨rX, p0⟩] S8x480x512.size (by rfl) y

/-! ## The body's triple -/

set_option maxHeartbeats 1000000 in
/-- The body, given the three input staging buffers at contents x0, x1, x2 and the result's at anything, runs to its
    return with the inputs unchanged and the result's buffer at `outBlk x0 x1 x2`. -/
theorem sound_kernel (c : Dev nD) (E : Set ℕ) (i : grid1.Coords) (arg2 : Memref sig .tc .vmem S8x480x512 .f32) (harg2 : arg2.IsWhole)
    (arg3 : Memref sig .tc .vmem S8x480 .f32) (harg3 : arg3.IsWhole) (arg4 : Memref sig .tc .vmem S1x480 .f32) (harg4 : arg4.IsWhole)
    (arg5 : Memref sig .tc .vmem S8x480x512 .f32) (harg5 : arg5.IsWhole)
    (x0 : Vec F S8x480x512 .f32) (x1 : Vec F S8x480 .f32) (x2 : Vec F S1x480 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outBlk x0 x1 x2)) -∗ K ⟨⟩))
      ⊢ wp frame (wpE (defs₀ (F := F)) Variants.none c none) E (cc1__affine_kernel i arg2 harg2 arg3 harg3 arg4 harg4 arg5 harg5) K := by
  simp only [cc1__affine_kernel_eq_skeleton]; unfold cc1__affine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The pipeline's proof data -/

/-- The proof data of the affine pass on core `c`: the arrays as the region finds them; after the body at point `t`
    each input's buffer at its block and the result's at `outBlk` of the input blocks; the plain invariant; nothing
    owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outBlk (iblk V c 0 t) (iblk V c 1 t) (iblk V c 2 t)
  Φ _ := Pipeline.ΦA spec1 c
  q _ := fullShare
  owed _ := 0

theorem A_eq (c : Dev nD) (w : Fin cfg1.W) : (dat V c).A w = V c (Pipeline.arrRef spec1 w) := by
  dsimp only [dat]

theorem after_x (c : Dev nD) (t : Fin cfg1.N) : (dat V c).after 0 t = iblk V c 0 t := by dsimp only [dat]
theorem after_scale (c : Dev nD) (t : Fin cfg1.N) : (dat V c).after 1 t = iblk V c 1 t := by dsimp only [dat]
theorem after_shift (c : Dev nD) (t : Fin cfg1.N) : (dat V c).after 2 t = iblk V c 2 t := by dsimp only [dat]
theorem after_out (c : Dev nD) (t : Fin cfg1.N) :
    (dat V c).after 3 t = outBlk (iblk V c 0 t) (iblk V c 1 t) (iblk V c 2 t) := by dsimp only [dat]

theorem before0 (c : Dev nD) (t : Fin cfg1.N) (d) : (dat V c).before 0 t d = iblk V c 0 t :=
  before_x V (dat V c) (A_eq V c 0) (after_x V c) t d
theorem before1 (c : Dev nD) (t : Fin cfg1.N) (d) : (dat V c).before 1 t d = iblk V c 1 t :=
  before_scale V (dat V c) (A_eq V c 1) (after_scale V c) t d
theorem before2 (c : Dev nD) (t : Fin cfg1.N) (d) : (dat V c).before 2 t d = iblk V c 2 t :=
  before_shift V (dat V c) (A_eq V c 2) (after_shift V c) t d

/-! ## The body obligation -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the inputs' buffers hold their blocks, so the triple applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2]
  rw [show (dat V c).Φ t.succ = (dat V c).Φ t.castSucc from rfl,
    show (dat V c).owesAt () t.succ = (dat V c).owesAt () t.castSucc from rfl,
    after_x, after_scale, after_shift, after_out]
  iintro ⟨HΦ, Ho, ⟨%d0, H0⟩, ⟨%d1, H1⟩, ⟨%d2, H2⟩, ⟨%d3, H3⟩⟩
  iapply (sound_kernel c Set.univ (grid1.coords t) _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Affine

end
-- ==== Proof.Ideal.Whole.lean ====
/-
  The whole program as a run: host operations, the sum-of-squares pass, the host chain that turns the sums into
  per-channel scales and shifts, the affine pass, and the final reshape.

  The buffer contents at each boundary between two of these five stretches are written as a fold from the launch
  memory: a host stretch applies its operations' functions; a pallas_call leaves each of its arrays at what its
  write-backs leave (the inputs as they were) and every other buffer untouched. Each pallas_call enters from "every
  unscoped buffer at the boundary's contents, the generator register at some state, nothing owed" and leaves in the
  same form, so the five stretches chain, and at the end every unscoped buffer is read off the last contents.
-/
import proofs.«411428_j71322226918038_3_alg».proof.Proof.Ideal.SumSq
import proofs.«411428_j71322226918038_3_alg».proof.Proof.Ideal.Affine
import proofs.«411428_j71322226918038_3_alg».proof.Proof.Gen.KernelIdeal.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the channel-to-field table written). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the sum-of-squares pass: its result array at what the write-backs leave. -/
def W2 (c : Dev nD) : Valuation τ sig (Elt F) :=
  Pipeline.withArrays spec0 c (W1 m ρ c) fun w => (SumSq.dat (V1 m ρ) c).arrAt w cfg0.N
theorem W2_arr (c : Dev nD) (w : Fin cfg0.W) :
    W2 m ρ c (Proc.devRef .tc (Pipeline.arrRef spec0 w)) = (SumSq.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (SumSq.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host chain between the two passes. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the affine pass: its result array at what the write-backs leave. -/
def W4 (c : Dev nD) : Valuation τ sig (Elt F) :=
  Pipeline.withArrays spec1 c (W3 m ρ c) fun w => (Affine.dat (V3 m ρ) c).arrAt w cfg1.N
theorem W4_arr (c : Dev nD) (w : Fin cfg1.W) :
    W4 m ρ c (Proc.devRef .tc (Pipeline.arrRef spec1 w)) = (Affine.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (Affine.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the final reshape. -/
abbrev W5 : Dev nD → Valuation τ sig (Elt F) := fun c => StableHlo.after hostOps2 (W4 m ρ c)

/-! ## No stretch changes an argument -/

/-- x reaches the end as launched: no host stretch writes it, the first pass only reads it through an input window,
    the second pass does not name it. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) :=
        (W2_arr m ρ c 0).trans (((SumSq.dat (V1 m ρ) c).arrAt_in 0 rfl _).trans (SumSq.A_eq (V1 m ρ) c 0))
    _ = W0 m ρ c (Proc.devRef .tc main_arg0) := StableHlo.after_of_writes_sub hostOps0 _ hostOps0_writes (by decide)
    _ = m ((c : Thread nD τ).loc main_arg0) := rfl

/-- gamma reaches the end as launched: nothing writes it and no pass stages it. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- beta likewise. -/
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-! ## The proof data family and the thread state -/

/-- No pallas_call has a prefetched table. -/
abbrev adm : (p : Fin 2) → (pcfgs (F := F) p).Adm := fun p => (cfgs p).toPCfg_adm
/-- Each pass's proof data at the contents its region is entered with. -/
def pdats : (p : Fin 2) → (c : Dev nD) → Dat τ (Elt F) Unit ℕ (UR sig nD τ) ℕ (Pipeline.pin (pcfgs (F := F)) adm p) c
  | ⟨0, _⟩ => fun c => SumSq.dat (V1 m ρ) c
  | ⟨1, _⟩ => fun c => Affine.dat (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every stretch: the generator register at some state, and nothing owed. -/
abbrev R (c : Dev nD) : sProp 𝕄 := iprop((∃ r, prngReg c r) ∗ ∃ W, owes (c : Thread nD τ) (0 : CellTallies nD τ sig Unit) W)
/-- A host stretch over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at
    some state. -/
abbrev Tₙ (c : Dev nD) : sProp 𝕄 := iprop(StableHlo.held (c : Thread nD τ) (Pipeline.ucRefs τ sig) (W5 m ρ c) ∗ ∃ r, prngReg c r)

/-! ## The two pallas_calls as segments -/

-- a library lemma stated over the pinned configuration unifies with the printed one only when unification may unfold
-- plain definitions in a metavariable's type
set_option backward.isDefEq.respectTransparency.types false in
/-- The sum-of-squares pass: its arrays split out of the unscoped buffers and put back at the exit contents; the
    generator register into the invariant and out; the scratch's final contents forgotten on the way out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (SumSq.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (SumSq.hin (V1 m ρ) c)
    unfold Pipeline.ΦA
    iintro ⟨Hp, -, Hr⟩
    isplitl [Hr]; · iexact Hr
    iexact Hp
  hout c := by
    rw [Pipeline.ownSems0_none]
    refine (SumSq.hout (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The affine pass: the same routing, its invariant the plain one throughout. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Affine.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its five segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- From any memory with zero counters every weakly fair execution of the program terminates, nothing faulting, and
    in every final state each unscoped buffer holds what the fold `W5` says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: every weakly fair execution terminates, nothing faulting, and the three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

end Cert.KernelIdeal.Whole

end
-- ==== Proof.Ideal.HostChain.lean ====
/-
  The host operations of the two-pass program, read as functions of the arguments.

  Between its two passes the program turns the per-(batch, channel) sums of squares `ss` into a per-(batch, channel)
  scale and a per-channel shift: the normaliser N = fieldNorm(table, ss) (per field the sum of `ss` over the field's
  channels, its square root, divided by the mean of the roots over the fields plus a small constant, read back per
  channel), then
      scale[b, c] = N[b, c] * g[field c] + 1 ,      shift[0, c] = bt[field c] ,
  with g, bt the two per-field vectors flattened to [128] and read through the channel-to-field table (negative
  entries wrapped by 128). It also lays the input out as [16, 480, 4096], and after the second pass lays that pass's
  result out as [16, 480, 64, 64] again. Here each of these buffers is read off the fold of the program's stretches
  as that function of the launch contents; and no stretch changes an argument.
-/
import proofs.«411428_j71322226918038_3_alg».proof.Proof.Ideal.Whole
import Idealize.ShloMosaic.Lib.StableHlo.Run

set_option maxRecDepth 16384

noncomputable section

namespace Cert.KernelIdeal.HostChain

open Cert.KernelIdeal Cert.KernelIdeal.Gen
open Idealize.ShloMosaic Idealize.ShloMosaic.TcCoe Idealize.SL.Sem Idealize.ShloMosaic.StableHlo

variable {F : FTy → Type} [FloatOps F]

/-- the channel-to-field table as the program's first constant holds it -/
abbrev segTab : (⟨S480, .i32⟩ : BufTy).Contents (Elt F) := fun i => lit0 (S480.rowMajor i)

/-- the gather index vector: the table with negative entries wrapped by 128, as a column -/
def wrapIdx (seg : (⟨S480, .i32⟩ : BufTy).Contents (Elt F)) : (⟨S480x1, .i32⟩ : BufTy).Contents (Elt F) :=
  broadcastInDim S480x1 ![0] bcast_S480_S480x1_0
    (select (cmpi .slt seg (broadcastInDim S480 ![] bcast_S_S480 (constantI S_ 32 0#32)))
      (addi seg (broadcastInDim S480 ![] bcast_S_S480 (constantI S_ 32 128#32))) seg)

/-- the normaliser, from the table and the sums of squares `ss`: per field the sum of `ss` over the field's channels
    (a scatter-add into zeros, on the transposed array), its square root `r[b, f]`, the mean of `r[b, ·]` over the 128
    fields plus a small constant, the quotient `r / (mean + eps)`, and that quotient read back per channel through the
    wrapped table. -/
def fieldNorm (seg : (⟨S480, .i32⟩ : BufTy).Contents (Elt F)) (ss : (⟨S16x480, .f32⟩ : BufTy).Contents (Elt F)) :
    (⟨S16x480, .f32⟩ : BufTy).Contents (Elt F) :=
  Host.gather gather_S16x128_S480x1_S16x480_0_1_n_n_1_1_161
    (Host.divf
      (Host.sqrt (transpose S16x128 [1, 0]
        (Host.scatterAdd scatter_S128x16_S480x1_S480x16_1_0_0_1
          (broadcastInDim S128x16 ![] bcast_S_S128x16 (constant S_ .f32 0x00000000#32))
          (broadcastInDim S480x1 ![0] bcast_S480_S480x1_0 seg)
          (transpose S480x16 [1, 0] ss transposes_S16x480_S480x16_1_0))
        transposes_S128x16_S16x128_1_0))
      (broadcastInDim S16x128 ![0, 1] bcast_S16x1_S16x128_0_1
        (addf
          (Host.divf
            (broadcastInDim S16x1 ![0] bcast_S16_S16x1_0
              (Host.reduceAdd
                (Host.sqrt (transpose S16x128 [1, 0]
                  (Host.scatterAdd scatter_S128x16_S480x1_S480x16_1_0_0_1
                    (broadcastInDim S128x16 ![] bcast_S_S128x16 (constant S_ .f32 0x00000000#32))
                    (broadcastInDim S480x1 ![0] bcast_S480_S480x1_0 seg)
                    (transpose S480x16 [1, 0] ss transposes_S16x480_S480x16_1_0))
                  transposes_S128x16_S16x128_1_0))
                (constant S_ .f32 0x00000000#32) reducesTo_S16x128_S16_d1 h_S_))
            (broadcastInDim S16x1 ![] bcast_S_S16x1 (constant S_ .f32 0x43000000#32)))
          (broadcastInDim S16x1 ![] bcast_S_S16x1 (constant S_ .f32 0x358637BD#32)))))
    (wrapIdx seg)

/-- the per-(batch, channel) scale: the normaliser times the field's entry of `g` (flattened to [128], read through the
    wrapped table, spread over the batch), plus one -/
def scale (seg : (⟨S480, .i32⟩ : BufTy).Contents (Elt F)) (ss : (⟨S16x480, .f32⟩ : BufTy).Contents (Elt F))
    (g : (⟨S1x128x1x1, .f32⟩ : BufTy).Contents (Elt F)) : (⟨S16x480, .f32⟩ : BufTy).Contents (Elt F) :=
  addf
    (mulf (fieldNorm seg ss)
      (broadcastInDim S16x480 ![0, 1] bcast_S1x480_S16x480_0_1
        (broadcastInDim S1x480 ![1] bcast_S480_S1x480_1
          (Host.gather gather_S128_S480x1_S480_n_0_n_n_0_1_1 (shapeCast S128 g shapeCasts_S1x128x1x1_S128) (wrapIdx (F := F) seg)))))
    (broadcastInDim S16x480 ![] bcast_S_S16x480 (constant S_ .f32 0x3F800000#32))

/-- the per-channel shift: the field's entry of `b` (flattened to [128], read through the wrapped table), as a row -/
def shift (seg : (⟨S480, .i32⟩ : BufTy).Contents (Elt F)) (b : (⟨S1x128x1x1, .f32⟩ : BufTy).Contents (Elt F)) :
    (⟨S1x480, .f32⟩ : BufTy).Contents (Elt F) :=
  broadcastInDim S1x480 ![1] bcast_S480_S1x480_1
    (Host.gather gather_S128_S480x1_S480_n_0_n_n_0_1_1 (shapeCast S128 b shapeCasts_S1x128x1x1_S128) (wrapIdx (F := F) seg))

variable (m : (ℓ : Loc nD τ sig) → Buf (Elt F) ℓ) (ρ : Dev nD → PrngReg)

/-! ## The contents before the host chain: the table, the sums of squares, the arguments -/

/-- After the first stretch the table's buffer holds the table. -/
theorem W1_tab (c : Dev nD) : Whole.W1 m ρ c (Proc.devRef .tc main_c) = segTab (F := F) := by
  show StableHlo.after hostOps0 _ (Proc.devRef .tc main_c) = _
  after_results
  rfl
/-- The first stretch writes no argument. -/
theorem W1_arg0 (c : Dev nD) : Whole.W1 m ρ c (Proc.devRef .tc main_arg0) = m ((c : Thread nD τ).loc main_arg0) := by
  show StableHlo.after hostOps0 _ (Proc.devRef .tc main_arg0) = _
  after_results
theorem W1_arg1 (c : Dev nD) : Whole.W1 m ρ c (Proc.devRef .tc main_arg1) = m ((c : Thread nD τ).loc main_arg1) := by
  show StableHlo.after hostOps0 _ (Proc.devRef .tc main_arg1) = _
  after_results
theorem W1_arg2 (c : Dev nD) : Whole.W1 m ρ c (Proc.devRef .tc main_arg2) = m ((c : Thread nD τ).loc main_arg2) := by
  show StableHlo.after hostOps0 _ (Proc.devRef .tc main_arg2) = _
  after_results

/-- The first pass leaves the table as it was: it is none of the pass's arrays. -/
theorem W2_tab (c : Dev nD) : Whole.W2 m ρ c (Proc.devRef .tc main_c) = segTab (F := F) :=
  (Whole.W2_of_ne m ρ c main_c (by decide)).trans (W1_tab m ρ c)
/-- The first pass's input array is never written back: it ends as it was launched. -/
theorem W2_arg0 (c : Dev nD) : Whole.W2 m ρ c (Proc.devRef .tc main_arg0) = m ((c : Thread nD τ).loc main_arg0) :=
  (Whole.W2_arr m ρ c 0).trans (((SumSq.dat (Whole.V1 m ρ) c).arrAt_in 0 rfl cfg0.N).trans
    ((SumSq.A_eq (Whole.V1 m ρ) c 0).trans (W1_arg0 m ρ c)))
theorem W2_arg1 (c : Dev nD) : Whole.W2 m ρ c (Proc.devRef .tc main_arg1) = m ((c : Thread nD τ).loc main_arg1) :=
  (Whole.W2_of_ne m ρ c main_arg1 (by decide)).trans (W1_arg1 m ρ c)
theorem W2_arg2 (c : Dev nD) : Whole.W2 m ρ c (Proc.devRef .tc main_arg2) = m ((c : Thread nD τ).loc main_arg2) :=
  (Whole.W2_of_ne m ρ c main_arg2 (by decide)).trans (W1_arg2 m ρ c)
/-- The first pass's result array holds what its write-backs leave. -/
theorem W2_ss (c : Dev nD) : Whole.W2 m ρ c (Proc.devRef .tc main_v0) = (SumSq.dat (Whole.V1 m ρ) c).arrAt 1 cfg0.N :=
  Whole.W2_arr m ρ c 1

/-! ## The host chain's results -/

/-- The chain lays the input out as [16, 480, 4096]. -/
theorem V3_x (c : Dev nD) : Whole.V3 m ρ c main_v44
    = shapeCast S16x480x4096 (m ((c : Thread nD τ).loc main_arg0)) shapeCasts_S16x480x64x64_S16x480x4096 := by
  show StableHlo.after hostOps1 (Whole.W2 m ρ c) (Proc.devRef .tc main_v44) = _
  after_results_simp
  rw [W2_arg0]
  rfl

/-- The chain's scale buffer is `scale` of the table, the first pass's sums and the first per-field vector. -/
theorem V3_scale (c : Dev nD) : Whole.V3 m ρ c main_v42
    = scale segTab ((SumSq.dat (Whole.V1 m ρ) c).arrAt 1 cfg0.N) (m ((c : Thread nD τ).loc main_arg1)) := by
  show StableHlo.after hostOps1 (Whole.W2 m ρ c) (Proc.devRef .tc main_v42) = _
  unfold scale fieldNorm wrapIdx
  after_results_simp
  rw [W2_tab, W2_ss, W2_arg1]
  rfl

/-- The chain's shift buffer is `shift` of the table and the second per-field vector. -/
theorem V3_shift (c : Dev nD) : Whole.V3 m ρ c main_v43 = shift segTab (m ((c : Thread nD τ).loc main_arg2)) := by
  show StableHlo.after hostOps1 (Whole.W2 m ρ c) (Proc.devRef .tc main_v43) = _
  unfold shift wrapIdx
  after_results_simp
  rw [W2_tab, W2_arg2]
  rfl

/-- The chain writes no argument. -/
theorem W3_arg0 (c : Dev nD) : Whole.W3 m ρ c (Proc.devRef .tc main_arg0) = m ((c : Thread nD τ).loc main_arg0) := by
  show StableHlo.after hostOps1 (Whole.W2 m ρ c) (Proc.devRef .tc main_arg0) = _
  after_results_simp
  exact W2_arg0 m ρ c
theorem W3_arg1 (c : Dev nD) : Whole.W3 m ρ c (Proc.devRef .tc main_arg1) = m ((c : Thread nD τ).loc main_arg1) := by
  show StableHlo.after hostOps1 (Whole.W2 m ρ c) (Proc.devRef .tc main_arg1) = _
  after_results_simp
  exact W2_arg1 m ρ c
theorem W3_arg2 (c : Dev nD) : Whole.W3 m ρ c (Proc.devRef .tc main_arg2) = m ((c : Thread nD τ).loc main_arg2) := by
  show StableHlo.after hostOps1 (Whole.W2 m ρ c) (Proc.devRef .tc main_arg2) = _
  after_results_simp
  exact W2_arg2 m ρ c

/-! ## After the second pass -/

/-- The result buffer is the second pass's result array laid out as [16, 480, 64, 64]. -/
theorem W5_out (c : Dev nD) : Whole.W5 m ρ c main_v46
    = shapeCast S16x480x64x64 ((Affine.dat (Whole.V3 m ρ) c).arrAt 3 cfg1.N) shapeCasts_S16x480x4096_S16x480x64x64 := by
  show StableHlo.after hostOps2 (Whole.W4 m ρ c) (Proc.devRef .tc main_v46) = _
  after_results
  rw [show Whole.W4 m ρ c (Proc.devRef .tc main_v45) = (Affine.dat (Whole.V3 m ρ) c).arrAt 3 cfg1.N from Whole.W4_arr m ρ c 3]
  rfl

/-- No stretch changes an argument: the second pass's arrays are other buffers, and the last reshape writes the result. -/
theorem W5_arg0 (c : Dev nD) : Whole.W5 m ρ c main_arg0 = m ((c : Thread nD τ).loc main_arg0) := by
  show StableHlo.after hostOps2 (Whole.W4 m ρ c) (Proc.devRef .tc main_arg0) = _
  after_results
  exact (Whole.W4_of_ne m ρ c main_arg0 (by decide)).trans (W3_arg0 m ρ c)
theorem W5_arg1 (c : Dev nD) : Whole.W5 m ρ c main_arg1 = m ((c : Thread nD τ).loc main_arg1) := by
  show StableHlo.after hostOps2 (Whole.W4 m ρ c) (Proc.devRef .tc main_arg1) = _
  after_results
  exact (Whole.W4_of_ne m ρ c main_arg1 (by decide)).trans (W3_arg1 m ρ c)
theorem W5_arg2 (c : Dev nD) : Whole.W5 m ρ c main_arg2 = m ((c : Thread nD τ).loc main_arg2) := by
  show StableHlo.after hostOps2 (Whole.W4 m ρ c) (Proc.devRef .tc main_arg2) = _
  after_results
  exact (Whole.W4_of_ne m ρ c main_arg2 (by decide)).trans (W3_arg2 m ρ c)

end Cert.KernelIdeal.HostChain

end
-- ==== Proof.Ideal.KernelValue.lean ====
/-
  The two-pass program's result read at one index.

  At (i0, i1, i2, i3) the result is
      x[i0,i1,i2,i3] * (N[i0,i1] * g[field i1] + 1) + bt[field i1],
  where N is the per-(batch, channel) normaliser of the first pass's sums of squares and `field i1` is the row of the
  per-field vectors that channel i1 reads: the table's entry for the channel, wrapped when negative, read as a signed
  integer and clamped into [0, 127] as a gather clamps its start indices.

  The second pass works on the input laid out as [16, 480, 4096] (position 64·i2 + i3 on the last axis) and its
  whole-array fact — result = input · scale + shift, elementwise, the scale per (batch, channel) and the shift per
  channel — is taken here as a hypothesis. What is read at an index: the two changes of layout (same row-major
  position), the spreads of the scale's and shift's ingredients (the operand at the kept coordinates, 0 on a unit axis),
  the gather of single elements of a flat vector (the operand at the clamped start index), and the constant one.
-/
import proofs.«411428_j71322226918038_3_alg».proof.Proof.Ideal.HostChain
import Idealize.ShloMosaic.Lib.ValueIdx
import Idealize.ShloMosaic.Lib.Pipeline.Value
import Idealize.ShloMosaic.Lib.IdealHost

noncomputable section

namespace Cert.KernelIdeal.HostChain

open Cert.KernelIdeal Cert.KernelIdeal.Gen
open Idealize.ShloMosaic Idealize.ShloMosaic.TcCoe Idealize.ShloMosaic.ValueIdx

/-- the field a channel reads, as the gather computes it: the wrapped table entry, read signed, clamped to [0, 127] -/
def fieldOf (c : Fin 480) : Fin 128 :=
  ⟨min ((wrapIdx (F := Ideal) segTab) (ValueIdx.ix2 c (0 : Fin 1))).toInt.toNat 127, by omega⟩

section Layout
variable {α : Type}

/-- A [1,128,1,1] array flattened to [128] reads, at `f`, its entry (0, f, 0, 0): the same row-major position. -/
theorem flat_apply (h : S1x128x1x1.ShapeCasts S128) (g : S1x128x1x1.Idx → α) (f : Fin 128) :
    shapeCast S128 g h (ix1 f) = g (ix4 (0 : Fin 1) f (0 : Fin 1) (0 : Fin 1)) := by
  refine shapeCast_apply g h (ix1 f) (ix4 (0 : Fin 1) f (0 : Fin 1) (0 : Fin 1)) ?_
  rw [Shape.rowMajor_val_four, Shape.rowMajor_val_one]
  show (((0 : ℕ) * 128 + f.val) * 1 + 0) * 1 + 0 = f.val
  omega

/-- A [16,480,64,64] array laid out as [16,480,4096] reads, at (i0, i1, 64·i2 + i3), its entry (i0, i1, i2, i3). -/
theorem image_flat_apply (h : S16x480x64x64.ShapeCasts S16x480x4096) (x : S16x480x64x64.Idx → α)
    (i0 : Fin 16) (i1 : Fin 480) (i2 i3 : Fin 64) (hj : 64 * i2.val + i3.val < 4096) :
    shapeCast S16x480x4096 x h (ix3 i0 i1 (⟨64 * i2.val + i3.val, hj⟩ : Fin 4096)) = x (ix4 i0 i1 i2 i3) := by
  refine shapeCast_apply x h _ (ix4 i0 i1 i2 i3) ?_
  rw [Shape.rowMajor_val_four, Shape.rowMajor_val_three]
  show ((i0.val * 480 + i1.val) * 64 + i2.val) * 64 + i3.val = (i0.val * 480 + i1.val) * 4096 + (64 * i2.val + i3.val)
  omega

/-- A [16,480,4096] array laid out as [16,480,64,64] reads, at (i0, i1, i2, i3), its entry (i0, i1, 64·i2 + i3). -/
theorem image_unflat_apply (h : S16x480x4096.ShapeCasts S16x480x64x64) (y : S16x480x4096.Idx → α)
    (i0 : Fin 16) (i1 : Fin 480) (i2 i3 : Fin 64) (hj : 64 * i2.val + i3.val < 4096) :
    shapeCast S16x480x64x64 y h (ix4 i0 i1 i2 i3) = y (ix3 i0 i1 (⟨64 * i2.val + i3.val, hj⟩ : Fin 4096)) := by
  refine shapeCast_apply y h _ (ix3 i0 i1 (⟨64 * i2.val + i3.val, hj⟩ : Fin 4096)) ?_
  rw [Shape.rowMajor_val_four, Shape.rowMajor_val_three]
  show (i0.val * 480 + i1.val) * 4096 + (64 * i2.val + i3.val) = ((i0.val * 480 + i1.val) * 64 + i2.val) * 64 + i3.val
  omega

/-- A row [1,480] spread over the batch reads, at (i0, i1), its entry (0, i1). -/
theorem row_spread (h : S1x480.BroadcastsInDim S16x480 (![0, 1] : Fin 2 → Fin S16x480.rank)) (Y : S1x480.Idx → α)
    (i0 : Fin 16) (i1 : Fin 480) :
    broadcastInDim S16x480 ![0, 1] h Y (ix2 i0 i1) = Y (ix2 (0 : Fin 1) i1) := by
  unfold broadcastInDim
  congr 1
  funext a
  match a with
  | ⟨0, _⟩ => rfl
  | ⟨1, _⟩ => rfl

/-- A [480] vector made a row [1,480] reads, at (0, i1), its entry i1. -/
theorem chan_row (h : S480.BroadcastsInDim S1x480 (![1] : Fin 1 → Fin S1x480.rank)) (Z : S480.Idx → α) (i1 : Fin 480) :
    broadcastInDim S1x480 ![1] h Z (ix2 (0 : Fin 1) i1) = Z (ix1 i1) := by
  unfold broadcastInDim
  congr 1
  funext a
  match a with
  | ⟨0, _⟩ => rfl

/-- THE GATHER OF SINGLE ELEMENTS OF A FLAT VECTOR, read at channel `c`: the operand [128] at the entry the start index
    `idx[c, 0]` names, read signed and clamped into [0, 127]. The slice has size one, nothing is batched and the one
    axis is collapsed, so the coordinate is the clamped start alone. -/
theorem gather_flat (G : S128.Idx → α) (idx : IVec S480x1 32) (c : Fin 480) :
    Host.gather gather_S128_S480x1_S480_n_0_n_n_0_1_1 G idx (ix1 c)
      = G (ix1 (⟨min (idx (ix2 c (0 : Fin 1))).toInt.toNat 127, by omega⟩ : Fin 128)) := by
  unfold Host.gather
  congr 1
  funext a
  match a with
  | ⟨0, h0⟩ =>
    refine Fin.ext ?_
    show gather_S128_S480x1_S480_n_0_n_n_0_1_1.start (ix1 c) idx ⟨0, h0⟩
        + gather_S128_S480x1_S480_n_0_n_n_0_1_1.batchCoord (ix1 c) ⟨0, h0⟩
        + gather_S128_S480x1_S480_n_0_n_n_0_1_1.offCoord (ix1 c) ⟨0, h0⟩
        = min (idx (ix2 c (0 : Fin 1))).toInt.toNat 127
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, h0⟩ : Fin S128.rank) ∈ gather_S128_S480x1_S480_n_0_n_n_0_1_1.startIndexMap
      from List.mem_singleton.mpr rfl)]
    have hsi : gather_S128_S480x1_S480_n_0_n_n_0_1_1.siIdx (ix1 c)
        ⟨List.idxOf (⟨0, h0⟩ : Fin S128.rank) gather_S128_S480x1_S480_n_0_n_n_0_1_1.startIndexMap,
          List.idxOf_lt_length_iff.2 (List.mem_singleton.mpr rfl)⟩ = ix2 c (0 : Fin 1) := by
      funext b; refine Fin.ext ?_
      match b with
      | ⟨0, _⟩ => rfl
      | ⟨1, _⟩ => rfl
    rw [hsi]
    rfl

end Layout

/-- The scale at (i0, i1): the normaliser there times the channel's field's entry of `g`, plus one. -/
theorem scale_apply (ss : FVec Ideal S16x480 .f32) (g : FVec Ideal S1x128x1x1 .f32) (i0 : Fin 16) (i1 : Fin 480) :
    scale (F := Ideal) segTab ss g (ix2 i0 i1)
      = fieldNorm (F := Ideal) segTab ss (ix2 i0 i1) * g (ix4 (0 : Fin 1) (fieldOf i1) (0 : Fin 1) (0 : Fin 1)) + 1 := by
  unfold scale
  rw [addf_apply, mulf_apply, row_spread, chan_row, gather_flat, flat_apply, broadcastInDim_scalar_apply, constant_apply,
    Ideal.ofBits_one_f32]
  rfl

/-- The shift at (0, i1): the channel's field's entry of `bt`. -/
theorem shift_apply (bt : FVec Ideal S1x128x1x1 .f32) (i1 : Fin 480) :
    shift (F := Ideal) segTab bt (ix2 (0 : Fin 1) i1) = bt (ix4 (0 : Fin 1) (fieldOf i1) (0 : Fin 1) (0 : Fin 1)) := by
  unfold shift
  rw [chan_row, gather_flat, flat_apply]
  rfl

/-- THE RESULT AT AN INDEX, over arrays: if the second pass's result array `A` is, elementwise, the input (laid out as
    [16,480,4096]) times the scale plus the shift, then `A` laid out as [16,480,64,64] is, at (i0,i1,i2,i3), the input
    times (the channel's normaliser times the field's entry of `g`, plus one), plus the field's entry of `bt`. -/
theorem out_value (h3 : S16x480x64x64.ShapeCasts S16x480x4096) (h4 : S16x480x4096.ShapeCasts S16x480x64x64)
    (x : FVec Ideal S16x480x64x64 .f32) (g bt : FVec Ideal S1x128x1x1 .f32) (ss : FVec Ideal S16x480 .f32)
    (A : FVec Ideal S16x480x4096 .f32)
    (hfin : ∀ (b : Fin 16) (ch : Fin 480) (j : Fin 4096), A (ix3 b ch j)
        = shapeCast S16x480x4096 x h3 (ix3 b ch j) * scale (F := Ideal) segTab ss g (ix2 b ch)
          + shift (F := Ideal) segTab bt (ix2 (0 : Fin 1) ch))
    (i0 : Fin 16) (i1 : Fin 480) (i2 i3 : Fin 64) :
    shapeCast S16x480x64x64 A h4 (ix4 i0 i1 i2 i3)
      = x (ix4 i0 i1 i2 i3)
          * (fieldNorm (F := Ideal) segTab ss (ix2 i0 i1) * g (ix4 (0 : Fin 1) (fieldOf i1) (0 : Fin 1) (0 : Fin 1)) + 1)
        + bt (ix4 (0 : Fin 1) (fieldOf i1) (0 : Fin 1) (0 : Fin 1)) := by
  have hj : 64 * i2.val + i3.val < 4096 := by omega
  rw [image_unflat_apply h4 A i0 i1 i2 i3 hj, hfin, image_flat_apply, scale_apply, shift_apply]

/-- An array of extended reals named at its literal shape. A buffer's contents are such an array once the buffer's type
    is computed from its number; naming the array at the computed type lets its elements be added and multiplied. -/
abbrev arr (s : Shape) (v : FVec Ideal s .f32) : FVec Ideal s .f32 := v

variable (m : (ℓ : Loc nD τ sig) → Buf (Elt Ideal) ℓ) (ρ : Dev nD → PrngReg)

/-- THE RESULT AT AN INDEX, over the program's buffers, given the second pass's whole-array fact. -/
theorem out_apply (c : Dev nD)
    (hfin : ∀ (b : Fin 16) (ch : Fin 480) (j : Fin 4096),
        arr S16x480x4096 ((Affine.dat (F := Ideal) (Whole.V3 m ρ) c).arrAt 3 cfg1.N) (ValueIdx.ix3 b ch j)
        = arr S16x480x4096 (Whole.V3 m ρ c main_v44) (ValueIdx.ix3 b ch j) * arr S16x480 (Whole.V3 m ρ c main_v42) (ValueIdx.ix2 b ch)
          + arr S1x480 (Whole.V3 m ρ c main_v43) (ValueIdx.ix2 (0 : Fin 1) ch))
    (i0 : Fin 16) (i1 : Fin 480) (i2 i3 : Fin 64) :
    arr S16x480x64x64 (Whole.W5 (F := Ideal) m ρ c main_v46) (ValueIdx.ix4 i0 i1 i2 i3)
      = arr S16x480x64x64 (m ((c : Thread nD τ).loc main_arg0)) (ValueIdx.ix4 i0 i1 i2 i3)
          * (fieldNorm (F := Ideal) segTab ((SumSq.dat (Whole.V1 m ρ) c).arrAt 1 cfg0.N) (ValueIdx.ix2 i0 i1)
              * arr S1x128x1x1 (m ((c : Thread nD τ).loc main_arg1)) (ValueIdx.ix4 0 (fieldOf i1) 0 0) + 1)
        + arr S1x128x1x1 (m ((c : Thread nD τ).loc main_arg2)) (ValueIdx.ix4 0 (fieldOf i1) 0 0) := by
  rw [W5_out]
  refine out_value shapeCasts_S16x480x64x64_S16x480x4096 shapeCasts_S16x480x4096_S16x480x64x64
    (m ((c : Thread nD τ).loc main_arg0)) (m ((c : Thread nD τ).loc main_arg1)) (m ((c : Thread nD τ).loc main_arg2))
    ((SumSq.dat (Whole.V1 m ρ) c).arrAt 1 cfg0.N) ((Affine.dat (F := Ideal) (Whole.V3 m ρ) c).arrAt 3 cfg1.N) ?_ i0 i1 i2 i3
  intro b ch j
  have h := hfin b ch j
  rw [V3_x, V3_scale, V3_shift] at h
  exact h

end Cert.KernelIdeal.HostChain

end
-- ==== Proof.Ideal.SumSqValue.lean ====
/-
  The first pallas_call's result as a whole array: the per-(batch, channel) sum of squares
      ss[b, ch] = Σ_{h < 64} Σ_{w < 64} x[b, ch, h, w]².

  The grid is 2 × 8; point t = 8·p + q sees the block of x of batch rows 8p … 8p+7, all 480 channels, image rows
  8q … 8q+7 and all 64 columns, and the result's block of batch rows 8p … 8p+7. One step of the body adds to the
  accumulator, at each (batch, channel) pair of the block, the sum of the block's 8 × 64 squares there: a band of
  8 image rows. The accumulator restarts at q = 0, so after point 8·p + q it holds the bands 0 … q of the batch rows
  8p … 8p+7 (induction on the grid position); the result's block is written back after q = 7, when all 8 bands are in,
  and 8 bands of 8 rows are the 64 rows. The two points that write back (t = 7 and t = 15) cover the 16 batch rows,
  so the array ends holding ss.

  Everything is read at the extended reals, where sums are exact and may be regrouped freely.
-/
import proofs.«411428_j71322226918038_3_alg».proof.Proof.Ideal.SumSq
import Idealize.ShloMosaic.Lib.Pipeline.Value
import Idealize.ShloMosaic.Lib.ValueIdx
import Idealize.ShloMosaic.PureOps.Ideal.Laws
import Mathlib.Algebra.BigOperators.Fin
import Mathlib.Algebra.BigOperators.Intervals

set_option maxRecDepth 16384

noncomputable section

open scoped BigOperators

namespace Cert.KernelIdeal.SumSqValue

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The body's arithmetic at an index -/

/-- The cleared accumulator reads zero everywhere. -/
theorem pay1_apply (i : Fin 8) (ch : Fin 480) : (k0_pay1 (F := Ideal)) (ix2 i ch) = 0 := by
  unfold k0_pay1
  rw [shapeCast_self]
  exact Ideal.ofBits_zero_f32

/-- Putting back first the image-row coordinate and then the column coordinate into a (batch, channel) index gives
    the block's index with those four coordinates. -/
theorem lift_lift (i : Fin 8) (ch : Fin 480) (r : Fin 8) (l : Fin 64) :
    reduces_S8x480x8x64_S8x480x8.lift (reduces_S8x480x8_S8x480.lift (ix2 i ch) r) l = ix4 i ch r l := by
  funext a; apply Fin.ext
  match a with
  | ⟨0, _⟩ => rfl
  | ⟨1, _⟩ => rfl
  | ⟨2, _⟩ => rfl
  | ⟨3, _⟩ => rfl

/-- One step of the body at a (batch, channel) pair: the accumulator there plus the sum, over the block's 8 image
    rows and 64 columns, of the squares. -/
theorem pay2_apply (X : Vec Ideal S8x480x8x64 .f32) (a : Vec Ideal S8x480 .f32) (i : Fin 8) (ch : Fin 480) :
    k0_pay2 (F := Ideal) X a (ix2 i ch)
      = a (ix2 i ch) + ∑ r : Fin 8, ∑ l : Fin 64, X (ix4 i ch r l) * X (ix4 i ch r l) := by
  unfold k0_pay2
  dsimp only
  rw [shapeCast_self]
  refine (addf_apply a _ (ix2 i ch)).trans ?_
  refine congrArg (a (ix2 i ch) + ·) ?_
  refine (Ideal.multiReduction_add_single _ _ _ _ _ (ix2 i ch)).trans ?_
  refine Finset.sum_congr rfl fun (r : Fin 8) _ => ?_
  refine (Ideal.multiReduction_add_single _ _ _ _ _ _).trans ?_
  refine Finset.sum_congr rfl fun (l : Fin 64) _ => ?_
  exact congrArg (fun j => X j * X j) (lift_lift i ch r l)

/-! ## The block of x a grid point sees, read off the array -/

/-- The printed index maps over the 16 grid points: at point t = 8·p + q the block of x has index (p, 0, q, 0) and
    the block of the result has index (p, 0). -/
theorem idx_facts : ∀ t : Fin cfg0.N, win0_0.index t (0 : Fin 4) = t.val / 8 ∧ win0_0.index t (1 : Fin 4) = 0
    ∧ win0_0.index t (2 : Fin 4) = t.val % 8 ∧ win0_0.index t (3 : Fin 4) = 0
    ∧ win0_1.index t (0 : Fin 2) = t.val / 8 ∧ win0_1.index t (1 : Fin 2) = 0 :=
  (by decide +kernel : ∀ t : Fin grid0.N, _)

/-- The block of x at point `t`, as a vector of its literal shape. -/
abbrev xblk (c : Dev nD) (t : Fin cfg0.N) : Vec Ideal S8x480x8x64 .f32 := SumSq.iblk V c 0 t

/-- Entry (i, ch, r, l) of the block at point t = 8·p + q is x at batch row 8·p + i, channel ch, image row 8·q + r,
    column l. -/
theorem xblk_apply (c : Dev nD) (x : Vec Ideal S16x480x64x64 .f32) (hx : V c main_arg0 = x) (t : Fin cfg0.N)
    (i : Fin 8) (ch : Fin 480) (r : Fin 8) (l : Fin 64) (b : Fin 16) (h : Fin 64)
    (hb : b.val = 8 * (t.val / 8) + i.val) (hh : h.val = 8 * (t.val % 8) + r.val) :
    xblk V c t (ix4 i ch r l) = x (ix4 b ch h l) := by
  obtain ⟨e0, e1, e2, e3, -, -⟩ := idx_facts t
  subst hx
  unfold xblk SumSq.iblk
  rw [View.read_apply]
  show V c main_arg0 _ = V c main_arg0 _
  refine congrArg (V c main_arg0) ?_
  funext a; apply Fin.ext
  match a with
  | ⟨0, _⟩ => show win0_0.index t (0 : Fin 4) * 8 + 1 * i.val = b.val; rw [e0, hb]; omega
  | ⟨1, _⟩ => show win0_0.index t (1 : Fin 4) * 480 + 1 * ch.val = ch.val; rw [e1]; omega
  | ⟨2, _⟩ => show win0_0.index t (2 : Fin 4) * 8 + 1 * r.val = h.val; rw [e2, hh]; omega
  | ⟨3, _⟩ => show win0_0.index t (3 : Fin 4) * 64 + 1 * l.val = l.val; rw [e3]; omega

/-! ## The accumulator after each point -/

/-- The sum of the squares of x over the k-th band of 8 image rows (rows 8k … 8k+7, all 64 columns) at a
    (batch, channel) pair; there are 8 bands, and past them the sum is empty. -/
def band (x : Vec Ideal S16x480x64x64 .f32) (b : Fin 16) (ch : Fin 480) (k : ℕ) : EReal :=
  if hk : k < 8 then
    ∑ r : Fin 8, ∑ l : Fin 64, x (ix4 b ch (⟨8 * k + r.val, by have := r.isLt; omega⟩ : Fin 64) l)
      * x (ix4 b ch (⟨8 * k + r.val, by have := r.isLt; omega⟩ : Fin 64) l)
  else 0

/-- What a point's block contributes at (i, ch): the band of its image rows, at its batch row. -/
theorem blocksum_eq (c : Dev nD) (x : Vec Ideal S16x480x64x64 .f32) (hx : V c main_arg0 = x) (t : Fin cfg0.N)
    (i : Fin 8) (ch : Fin 480) (b : Fin 16) (hb : b.val = 8 * (t.val / 8) + i.val) :
    ∑ r : Fin 8, ∑ l : Fin 64, xblk V c t (ix4 i ch r l) * xblk V c t (ix4 i ch r l) = band x b ch (t.val % 8) := by
  unfold band
  rw [dif_pos (Nat.mod_lt _ (by decide))]
  refine Finset.sum_congr rfl fun r _ => Finset.sum_congr rfl fun l _ => ?_
  rw [xblk_apply V c x hx t i ch r l b ⟨8 * (t.val % 8) + r.val, by have := r.isLt; omega⟩ hb rfl]

/-- At a point with q = 0 the accumulator holds that point's band alone, -/
theorem acc_first (c : Dev nD) (x : Vec Ideal S16x480x64x64 .f32) (hx : V c main_arg0 = x) (t : Fin cfg0.N)
    (h0 : t.val % 8 = 0) (i : Fin 8) (ch : Fin 480) (b : Fin 16) (hb : b.val = 8 * (t.val / 8) + i.val) :
    SumSq.accAt V c t.val t.isLt (ix2 i ch) = band x b ch (t.val % 8) := by
  refine (congrFun (SumSq.accAt_first V c t h0) (ix2 i ch)).trans ?_
  refine (pay2_apply (xblk V c t) (k0_pay1 (F := Ideal)) i ch).trans ?_
  rw [pay1_apply, zero_add]
  exact blocksum_eq V c x hx t i ch b hb

/-- and at a point with q ≠ 0 what the point before left plus this point's band. -/
theorem acc_next (c : Dev nD) (x : Vec Ideal S16x480x64x64 .f32) (hx : V c main_arg0 = x) (t : Fin cfg0.N)
    (h0 : ¬ t.val % 8 = 0) (i : Fin 8) (ch : Fin 480) (b : Fin 16) (hb : b.val = 8 * (t.val / 8) + i.val) :
    SumSq.accAt V c t.val t.isLt (ix2 i ch)
      = SumSq.accAt V c (t.val - 1) (Nat.lt_of_le_of_lt (Nat.sub_le _ _) t.isLt) (ix2 i ch) + band x b ch (t.val % 8) := by
  refine (congrFun (SumSq.accAt_next V c t h0) (ix2 i ch)).trans ?_
  refine (pay2_apply (xblk V c t) _ i ch).trans ?_
  rw [blocksum_eq V c x hx t i ch b hb]

/-- So after point n = 8·p + q the accumulator holds, at (i, ch), the bands 0 … q of batch row 8·p + i. -/
theorem acc_eq (c : Dev nD) (x : Vec Ideal S16x480x64x64 .f32) (hx : V c main_arg0 = x) :
    ∀ (n : ℕ) (hn : n < cfg0.N) (i : Fin 8) (ch : Fin 480) (b : Fin 16), b.val = 8 * (n / 8) + i.val →
      SumSq.accAt V c n hn (ix2 i ch) = ∑ k ∈ Finset.range (n % 8 + 1), band x b ch k := by
  intro n
  induction n with
  | zero =>
    intro hn i ch b hb
    refine (acc_first V c x hx ⟨0, hn⟩ rfl i ch b hb).trans ?_
    show band x b ch (0 % 8) = _
    rw [show (0 % 8 + 1) = 1 from rfl, Finset.sum_range_one]
  | succ n ih =>
    intro hn i ch b hb
    by_cases h0 : (n + 1) % 8 = 0
    · refine (acc_first V c x hx ⟨n + 1, hn⟩ h0 i ch b hb).trans ?_
      show band x b ch ((n + 1) % 8) = _
      rw [h0, Finset.sum_range_one]
    · refine (acc_next V c x hx ⟨n + 1, hn⟩ h0 i ch b hb).trans ?_
      have e : (n + 1) % 8 = n % 8 + 1 := by omega
      refine (congrArg (· + band x b ch ((n + 1) % 8)) (ih (Nat.lt_of_succ_lt hn) i ch b (by omega))).trans ?_
      show _ + band x b ch ((n + 1) % 8) = _
      rw [e, Finset.sum_range_succ (fun k => band x b ch k) (n % 8 + 1)]

/-- The 8 bands of 8 image rows are the 64 image rows. -/
theorem bands_total (x : Vec Ideal S16x480x64x64 .f32) (b : Fin 16) (ch : Fin 480) :
    ∑ k ∈ Finset.range 8, band x b ch k
      = ∑ h : Fin 64, ∑ w : Fin 64, x (ix4 b ch h w) * x (ix4 b ch h w) := by
  rw [← Fin.sum_univ_eq_sum_range (fun k => band x b ch k) 8]
  refine Eq.trans (Finset.sum_congr rfl fun (k : Fin 8) _ => (dif_pos k.isLt : band x b ch k.val = _)) ?_
  refine Eq.trans ?_ (Equiv.sum_comp (finProdFinEquiv (m := 8) (n := 8))
    (fun h : Fin 64 => ∑ w : Fin 64, x (ix4 b ch h w) * x (ix4 b ch h w)))
  rw [Fintype.sum_prod_type]
  refine Finset.sum_congr rfl fun k _ => Finset.sum_congr rfl fun r _ => ?_
  have e : (⟨8 * k.val + r.val, by have := r.isLt; have := k.isLt; omega⟩ : Fin 64) = finProdFinEquiv (k, r) :=
    Fin.ext (by simp [finProdFinEquiv]; omega)
  rw [e]

/-! ## From the blocks written back to the whole array -/

/-- The result as one function of x: at (b, ch) the sum over the whole 64 × 64 image of the squares. -/
def ssq (x : Vec Ideal S16x480x64x64 .f32) : Vec Ideal S16x480 .f32 := fun j =>
  ∑ h : Fin 64, ∑ w : Fin 64,
    x (ix4 (⟨(j 0).val, idx2_lt0 j⟩ : Fin 16) (⟨(j 1).val, idx2_lt1 j⟩ : Fin 480) h w)
      * x (ix4 (⟨(j 0).val, idx2_lt0 j⟩ : Fin 16) (⟨(j 1).val, idx2_lt1 j⟩ : Fin 480) h w)

theorem ssq_apply (x : Vec Ideal S16x480x64x64 .f32) (b : Fin 16) (ch : Fin 480) :
    ssq x (ix2 b ch) = ∑ h : Fin 64, ∑ w : Fin 64, x (ix4 b ch h w) * x (ix4 b ch h w) := rfl

/-- A point with q = 7 writes back its block of that function: its accumulator holds all 8 bands of its 8 batch
    rows. -/
theorem flushed_eq (c : Dev nD) (x : Vec Ideal S16x480x64x64 .f32) (hx : V c main_arg0 = x) (t : Fin cfg0.N)
    (hf : (cfg0.win 1).flush t = true) :
    (SumSq.dat (F := Ideal) V c).flushed 1 t = ((cfg0.win 1).blk t).view.read (Elt Ideal) (ssq x) := by
  have h7 : t.val % 8 = 7 := (flush0_1 t).mp hf
  have hN : cfg0.N = 16 := N_0
  have ht : t.val < 16 := hN ▸ t.isLt
  obtain ⟨-, -, -, -, e4, e5⟩ := idx_facts t
  show (cfg0.win 1).cut (grid0.coords t) ((SumSq.dat (F := Ideal) V c).after 1 t) = _
  rw [SumSq.after_acc]
  funext j
  obtain ⟨i, ch, rfl⟩ : ∃ (i : Fin 8) (ch : Fin 480), j = ix2 i ch := ⟨j 0, j 1, eq_ix2 (n0 := 8) (n1 := 480) j⟩
  rw [View.read_apply]
  have e1 : (cfg0.win 1).xinj (grid0.coords t) (ix2 i ch) = ix2 i ch :=
    funext fun a => by match a with | ⟨0, _⟩ => rfl | ⟨1, _⟩ => rfl
  have e2 : ((cfg0.win 1).blk t).view.emb (ix2 i ch)
      = ix2 (⟨8 * (t.val / 8) + i.val, by have := i.isLt; omega⟩ : Fin 16) ch := by
    funext a; apply Fin.ext
    match a with
    | ⟨0, _⟩ => show win0_1.index t (0 : Fin 2) * 8 + 1 * i.val = 8 * (t.val / 8) + i.val; rw [e4]; omega
    | ⟨1, _⟩ => show win0_1.index t (1 : Fin 2) * 480 + 1 * ch.val = ch.val; rw [e5]; omega
  show SumSq.accAt V c t.val t.isLt ((cfg0.win 1).xinj (grid0.coords t) (ix2 i ch)) = ssq x (((cfg0.win 1).blk t).view.emb (ix2 i ch))
  rw [e1, e2, ssq_apply,
    acc_eq V c x hx t.val t.isLt i ch (⟨8 * (t.val / 8) + i.val, by have := i.isLt; omega⟩ : Fin 16) rfl, h7]
  exact bands_total x _ ch

/-- Every (batch, channel) pair lies in the block some point with q = 7 writes back: batch row b in that of the
    point 8·(b / 8) + 7. -/
theorem cover (i : S16x480.Idx) :
    ∃ t : Fin cfg0.N, (cfg0.win 1).flush t = true ∧ i ∈ ((cfg0.win 1).blk t).view.set := by
  have hN : cfg0.N = 16 := N_0
  have hi0 : (i 0).val < 16 := (i 0).isLt
  have hi1 : (i 1).val < 480 := (i 1).isLt
  have htN : 8 * ((i 0).val / 8) + 7 < cfg0.N := by rw [hN]; omega
  refine ⟨⟨8 * ((i 0).val / 8) + 7, htN⟩, (flush0_1 _).mpr (by show (8 * ((i 0).val / 8) + 7) % 8 = 7; omega), ?_⟩
  obtain ⟨-, -, -, -, e4, e5⟩ := idx_facts ⟨8 * ((i 0).val / 8) + 7, htN⟩
  show i ∈ ((View.whole main_v0).slice (win0_1.rect ⟨8 * ((i 0).val / 8) + 7, htN⟩)).set
  rw [View.set_slice_whole, Rect.mem_set_unit]
  intro a
  match a with
  | ⟨0, _⟩ =>
    show win0_1.index _ (0 : Fin 2) * 8 ≤ (i 0).val ∧ (i 0).val < win0_1.index _ (0 : Fin 2) * 8 + 8
    rw [e4]; show (8 * ((i 0).val / 8) + 7) / 8 * 8 ≤ (i 0).val ∧ (i 0).val < (8 * ((i 0).val / 8) + 7) / 8 * 8 + 8; omega
  | ⟨1, _⟩ =>
    show win0_1.index _ (1 : Fin 2) * 480 ≤ (i 1).val ∧ (i 1).val < win0_1.index _ (1 : Fin 2) * 480 + 480
    rw [e5]; omega

/-- After the pass the result array is that function of x, -/
theorem final_fun (c : Dev nD) (x : Vec Ideal S16x480x64x64 .f32) (hx : V c main_arg0 = x) :
    (SumSq.dat (F := Ideal) V c).arrAt 1 cfg0.N = ssq x :=
  (SumSq.dat (F := Ideal) V c).arrAt_eq_of_cover 1 (ssq x) (fun t hf => flushed_eq V c x hx t hf) (fun i => cover i)

/-- that is, at (b, ch), the sum over the whole 64 × 64 image of the squares of x, for x any name of the array of
    x as the pass finds it. -/
theorem final_ss_of (c : Dev nD) (x : Vec Ideal S16x480x64x64 .f32) (hx : V c main_arg0 = x) (b : Fin 16) (ch : Fin 480) :
    (SumSq.dat (F := Ideal) V c).arrAt 1 cfg0.N (ValueIdx.ix2 b ch)
      = ∑ h : Fin 64, ∑ w : Fin 64, x (ValueIdx.ix4 b ch h w) * x (ValueIdx.ix4 b ch h w) :=
  congrFun (final_fun V c x hx) (ix2 b ch)

/-- An array of extended reals under its literal shape: the identity, so that sums and products of its entries
    are the extended reals'. -/
abbrev arr (s : Shape) (v : FVec Ideal s .f32) : FVec Ideal s .f32 := v

/-- after the pass the result array holds, at (b, ch), the sum over the whole 64 × 64 image of the squares of x -/
theorem final_ss (c : Dev nD) (b : Fin 16) (ch : Fin 480) :
    arr S16x480 ((SumSq.dat (F := Ideal) V c).arrAt 1 cfg0.N) (ix2 b ch)
      = ∑ h : Fin 64, ∑ w : Fin 64,
          arr S16x480x64x64 (V c main_arg0) (ix4 b ch h w) * arr S16x480x64x64 (V c main_arg0) (ix4 b ch h w) :=
  final_ss_of V c (V c main_arg0) rfl b ch

end Cert.KernelIdeal.SumSqValue

end
-- ==== Proof.Ideal.AffineValue.lean ====
/-
  The affine pass as a whole array.

  The kernel's second call, the affine pass, runs on a 2 × 8 grid; point t = 8p + q sees batch rows 8p … 8p + 7 and
  image positions 512q … 512q + 511 of x (flattened to [16, 480, 4096]), the scales of those batch rows ([8, 480] of
  [16, 480]) and the one row of shifts ([1, 480]), and writes back the block of the result at the same place as its
  block of x. The body's arithmetic, entry by entry, is  x[i, ch, k] · scale[i, ch] + shift[0, ch]:  the scales and
  the shifts are given a trailing unit axis and broadcast along the image axis.

  So every block written back is the restriction to that block of ONE function of the three arrays the pass finds,
    G x s u (b, ch, j) = x (b, ch, j) · s (b, ch) + u (0, ch),
  and the sixteen blocks tile the result array (index (b, ch, j) lies in the block of point 8 · (b / 8) + j / 512):
  after the pass the result array is G of the three arrays.
-/
import proofs.«411428_j71322226918038_3_alg».proof.Proof.Ideal.Affine
import Idealize.ShloMosaic.Lib.Pipeline.Value
import Idealize.ShloMosaic.Lib.ValueIdx

set_option maxRecDepth 16384

noncomputable section

namespace Cert.KernelIdeal.AffineValue

open Cert.KernelIdeal Cert.KernelIdeal.Gen
open Idealize.ShloMosaic Idealize.ShloMosaic.TcCoe Idealize.SL.Sem
open Idealize.ShloMosaic.ValueIdx
open Idealize.ShloMosaic.Pipeline (Dat)

/-! ## A trailing unit axis, and a broadcast along the last axis, read at an index -/
section Layout
variable {α : Type}

/-- An [a, b] array cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b, 1] array broadcast to [a, b, n] reads, at (i, j, k), the operand at (i, j, 0). -/
theorem broadcastTo_ab1_abn_apply {a b n : ℕ} (v : (⟨3, ![a, b, 1]⟩ : Shape).Idx → α)
    (h : (⟨3, ![a, b, 1]⟩ : Shape).Broadcasts ⟨3, ![a, b, n]⟩) (i : Fin a) (j : Fin b) (k : Fin n) :
    broadcastTo ⟨3, ![a, b, n]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A [1, b, 1] array broadcast to [a, b, n] reads, at (i, j, k), the operand at (0, j, 0). -/
theorem broadcastTo_1b1_abn_apply {a b n : ℕ} (v : (⟨3, ![1, b, 1]⟩ : Shape).Idx → α)
    (h : (⟨3, ![1, b, 1]⟩ : Shape).Broadcasts ⟨3, ![a, b, n]⟩) (i : Fin a) (j : Fin b) (k : Fin n) :
    broadcastTo ⟨3, ![a, b, n]⟩ v h (ix3 i j k) = v (ix3 (0 : Fin 1) j (0 : Fin 1)) := by
  refine broadcastTo_apply v h (ix3 i j k) (ix3 (0 : Fin 1) j (0 : Fin 1)) fun ax => ?_
  match ax with
  | ⟨0, _⟩ => rfl
  | ⟨1, _⟩ =>
    show j.val = if b = 1 then 0 else j.val
    split
    · have := j.isLt; omega
    · rfl
  | ⟨2, _⟩ => rfl

end Layout

/-! ## The body's arithmetic at an index -/

/-- The stored block at (i, ch, k): the block of x there, times the scale of row i and channel ch, plus the shift
    of channel ch. -/
theorem pay_apply (X : Vec Ideal S8x480x512 .f32) (S : Vec Ideal S8x480 .f32) (T : Vec Ideal S1x480 .f32)
    (i : Fin 8) (ch : Fin 480) (k : Fin 512) :
    k1_pay1 (F := Ideal) X S T (ix3 i ch k) = X (ix3 i ch k) * S (ix2 i ch) + T (ix2 (0 : Fin 1) ch) := by
  unfold k1_pay1
  refine (addf_apply _ _ _).trans ?_
  refine congrArg₂ (· + ·) ((mulf_apply _ _ _).trans (congrArg₂ (· * ·) ?_ ?_)) ?_
  · exact congrFun (shapeCast_self X _) _
  · refine (broadcastTo_ab1_abn_apply _ _ i ch k).trans ?_
    refine (shapeCast_ab_ab1_apply _ _ i ch (0 : Fin 1)).trans ?_
    exact congrFun (shapeCast_self S _) _
  · refine (broadcastTo_1b1_abn_apply _ _ i ch k).trans ?_
    refine (shapeCast_ab_ab1_apply _ _ (0 : Fin 1) ch (0 : Fin 1)).trans ?_
    exact congrFun (shapeCast_self T _) _

/-- The zero offsets of a whole-block access, however they are spelt. -/
theorem hz3 : (![0, 0, 0] : Fin 3 → Nat) = fun _ => 0 := funext fun a => by fin_cases a <;> rfl
theorem hz2 : (![0, 0] : Fin 2 → Nat) = fun _ => 0 := funext fun a => by fin_cases a <;> rfl

/-! ## The one function -/

variable (V : (c : Dev nD) → (b : Ref sig .tc) → Buf (Elt Ideal) ((c : Thread nD τ).loc b))

/-- The result as one function of the three arrays: x · scale + shift, index by index. -/
def G (x : S16x480x4096.Idx → Ideal .f32) (s : S16x480.Idx → Ideal .f32) (u : S1x480.Idx → Ideal .f32) :
    S16x480x4096.Idx → Ideal .f32 :=
  fun y => x y * s (ix2 (y 0) (y 1)) + u (ix2 (0 : Fin 1) (y 1))

/-! ## Where a grid point's blocks lie

Point t = 8p + q of the 2 × 8 grid works on batch rows 8p … 8p + 7 and image positions 512q … 512q + 511. -/

/-- The block indices of the four windows at a point, decided over the sixteen points: x and the result move
    together, the scales follow the batch block only, the shifts stay, and the batch block is t / 8, the position
    block t mod 8. -/
theorem idx_facts : ∀ t : Fin cfg1.N,
    win1_0.index t (0 : Fin 3) = win1_3.index t (0 : Fin 3) ∧ win1_0.index t (1 : Fin 3) = win1_3.index t (1 : Fin 3)
    ∧ win1_0.index t (2 : Fin 3) = win1_3.index t (2 : Fin 3)
    ∧ win1_1.index t (0 : Fin 2) = win1_3.index t (0 : Fin 3) ∧ win1_1.index t (1 : Fin 2) = 0
    ∧ win1_2.index t (0 : Fin 2) = 0 ∧ win1_2.index t (1 : Fin 2) = 0
    ∧ win1_3.index t (1 : Fin 3) = 0
    ∧ win1_3.index t (0 : Fin 3) = t.val / 8 ∧ win1_3.index t (2 : Fin 3) = t.val % 8 :=
  (by decide +kernel : ∀ t : Fin grid1.N, _)

/-- The batch row of the array under row i of the blocks at point t. -/
def row (t : Fin cfg1.N) (i : Fin 8) : Fin 16 :=
  ⟨8 * (t.val / 8) + i.val, by have h : t.val < cfg1.N := t.isLt; have hN : cfg1.N = 16 := N_1; omega⟩

/-- The image position of the array under position k of the blocks at point t. -/
def pos (t : Fin cfg1.N) (k : Fin 512) : Fin 4096 :=
  ⟨512 * (t.val % 8) + k.val, by omega⟩

/-- The block of x at point t, entry by entry. -/
theorem x_at (c : Dev nD) (t : Fin cfg1.N) (i : Fin 8) (ch : Fin 480) (k : Fin 512) :
    (Affine.iblk V c 0 t : Vec Ideal S8x480x512 .f32) (ix3 i ch k)
      = (V c main_v44 : S16x480x4096.Idx → Ideal .f32) (ix3 (row t i) ch (pos t k)) := by
  obtain ⟨e00, e01, e02, e10, e11, e20, e21, e31, e30, e32⟩ := idx_facts t
  unfold Affine.iblk
  rw [View.read_apply]
  show V c main_v44 _ = V c main_v44 _
  congr 1
  funext a
  apply Fin.ext
  match a with
  | ⟨0, _⟩ => show win1_0.index t (0 : Fin 3) * 8 + 1 * i.val = 8 * (t.val / 8) + i.val; omega
  | ⟨1, _⟩ => show win1_0.index t (1 : Fin 3) * 480 + 1 * ch.val = ch.val; omega
  | ⟨2, _⟩ => show win1_0.index t (2 : Fin 3) * 512 + 1 * k.val = 512 * (t.val % 8) + k.val; omega

/-- The block of scales at point t, entry by entry: the scales of the point's batch rows. -/
theorem s_at (c : Dev nD) (t : Fin cfg1.N) (i : Fin 8) (ch : Fin 480) :
    (Affine.iblk V c 1 t : Vec Ideal S8x480 .f32) (ix2 i ch)
      = (V c main_v42 : S16x480.Idx → Ideal .f32) (ix2 (row t i) ch) := by
  obtain ⟨e00, e01, e02, e10, e11, e20, e21, e31, e30, e32⟩ := idx_facts t
  unfold Affine.iblk
  rw [View.read_apply]
  show V c main_v42 _ = V c main_v42 _
  congr 1
  funext a
  apply Fin.ext
  match a with
  | ⟨0, _⟩ => show win1_1.index t (0 : Fin 2) * 8 + 1 * i.val = 8 * (t.val / 8) + i.val; omega
  | ⟨1, _⟩ => show win1_1.index t (1 : Fin 2) * 480 + 1 * ch.val = ch.val; omega

/-- The row of shifts at any point is the whole row. -/
theorem u_at (c : Dev nD) (t : Fin cfg1.N) (ch : Fin 480) :
    (Affine.iblk V c 2 t : Vec Ideal S1x480 .f32) (ix2 (0 : Fin 1) ch)
      = (V c main_v43 : S1x480.Idx → Ideal .f32) (ix2 (0 : Fin 1) ch) := by
  obtain ⟨e00, e01, e02, e10, e11, e20, e21, e31, e30, e32⟩ := idx_facts t
  unfold Affine.iblk
  rw [View.read_apply]
  show V c main_v43 _ = V c main_v43 _
  congr 1
  funext a
  apply Fin.ext
  match a with
  | ⟨0, _⟩ => show win1_2.index t (0 : Fin 2) * 1 + 1 * 0 = 0; omega
  | ⟨1, _⟩ => show win1_2.index t (1 : Fin 2) * 480 + 1 * ch.val = ch.val; omega

/-- Where entry (i, ch, k) of the result's block at point t lies in the result array. -/
theorem out_emb (t : Fin cfg1.N) (i : Fin 8) (ch : Fin 480) (k : Fin 512) :
    ((cfg1.win 3).blk t).view.emb (ix3 i ch k) = (ix3 (row t i) ch (pos t k) : S16x480x4096.Idx) := by
  obtain ⟨e00, e01, e02, e10, e11, e20, e21, e31, e30, e32⟩ := idx_facts t
  funext a
  apply Fin.ext
  match a with
  | ⟨0, _⟩ => show win1_3.index t (0 : Fin 3) * 8 + 1 * i.val = 8 * (t.val / 8) + i.val; omega
  | ⟨1, _⟩ => show win1_3.index t (1 : Fin 3) * 480 + 1 * ch.val = ch.val; omega
  | ⟨2, _⟩ => show win1_3.index t (2 : Fin 3) * 512 + 1 * k.val = 512 * (t.val % 8) + k.val; omega

/-- The one function at an index given by coordinates. -/
theorem G_apply (x : S16x480x4096.Idx → Ideal .f32) (s : S16x480.Idx → Ideal .f32) (u : S1x480.Idx → Ideal .f32)
    (b : Fin 16) (ch : Fin 480) (j : Fin 4096) :
    G x s u (ix3 b ch j) = x (ix3 b ch j) * s (ix2 b ch) + u (ix2 (0 : Fin 1) ch) := rfl

/-- What the body stores at point t is, entry by entry, the one function at the entry's place in the array. -/
theorem point_eq (c : Dev nD) (t : Fin cfg1.N) (j : S8x480x512.Idx) :
    k1_pay1 (F := Ideal) (Affine.iblk V c 0 t) (Affine.iblk V c 1 t) (Affine.iblk V c 2 t) j
      = G (V c main_v44) (V c main_v42) (V c main_v43) (((cfg1.win 3).blk t).view.emb j) := by
  obtain ⟨i, ch, k, rfl⟩ : ∃ (i : Fin 8) (ch : Fin 480) (k : Fin 512), j = ix3 i ch k := ⟨j 0, j 1, j 2, eq_ix3 j⟩
  refine (pay_apply (Affine.iblk V c 0 t) (Affine.iblk V c 1 t) (Affine.iblk V c 2 t) i ch k).trans ?_
  rw [out_emb t i ch k, G_apply, x_at V c t i ch k, s_at V c t i ch, u_at V c t ch]

/-- What point t writes back is its block of the one function. -/
theorem flushed_eq (c : Dev nD) (t : Fin cfg1.N) :
    (Affine.dat (F := Ideal) V c).flushed 3 t
      = ((cfg1.win 3).blk t).view.read (Elt Ideal) (G (V c main_v44) (V c main_v42) (V c main_v43)) := by
  show (cfg1.win 3).cut (grid1.coords t) ((Affine.dat (F := Ideal) V c).after 3 t) = _
  rw [Affine.after_out]
  unfold Affine.outBlk
  rw [View.canon_unit_zero hz3]
  simp only [View.ld_unit_zero (S := S8x480x512) hz3, View.ld_unit_zero (S := S8x480) hz2, View.ld_unit_zero (S := S1x480) hz2]
  funext j
  exact point_eq V c t j

/-! ## The blocks cover the array -/

/-- An index of the result array lies in point t's block iff each coordinate is in the block's range on its axis. -/
theorem mem_blk (t : Fin cfg1.N) (y : S16x480x4096.Idx) :
    y ∈ ((cfg1.win 3).blk t).view.set ↔ ∀ a : Fin 3, win1_3.index t a * S8x480x512.size a ≤ (y a).val
      ∧ (y a).val < win1_3.index t a * S8x480x512.size a + S8x480x512.size a := by
  show y ∈ ((View.whole main_v45).slice (win1_3.rect t)).set ↔ _
  rw [View.set_slice_whole, Rect.mem_set_unit]
  exact Iff.rfl

/-- Every index (b, ch, j) of the result array is written back by the point 8 · (b / 8) + j / 512. -/
theorem cover (y : S16x480x4096.Idx) :
    ∃ t : Fin cfg1.N, (cfg1.win 3).flush t = true ∧ y ∈ ((cfg1.win 3).blk t).view.set := by
  have h0 : (y 0).val < 16 := (y 0).isLt
  have h1 : (y 1).val < 480 := (y 1).isLt
  have h2 : (y 2).val < 4096 := (y 2).isLt
  have hN : cfg1.N = 16 := N_1
  obtain ⟨t, ht⟩ : ∃ t : Fin cfg1.N, t.val = 8 * ((y 0).val / 8) + (y 2).val / 512 := ⟨⟨_, by omega⟩, rfl⟩
  obtain ⟨-, -, -, -, -, -, -, e31, e30, e32⟩ := idx_facts t
  refine ⟨t, flush1_3 t, ?_⟩
  rw [mem_blk]
  intro a
  match a with
  | ⟨0, _⟩ => show win1_3.index t (0 : Fin 3) * 8 ≤ (y 0).val ∧ (y 0).val < win1_3.index t (0 : Fin 3) * 8 + 8; omega
  | ⟨1, _⟩ => show win1_3.index t (1 : Fin 3) * 480 ≤ (y 1).val ∧ (y 1).val < win1_3.index t (1 : Fin 3) * 480 + 480; omega
  | ⟨2, _⟩ => show win1_3.index t (2 : Fin 3) * 512 ≤ (y 2).val ∧ (y 2).val < win1_3.index t (2 : Fin 3) * 512 + 512; omega

/-! ## The result array -/

/-- After the pass the result array is the one function of the three arrays the pass found. -/
theorem final_arr (c : Dev nD) :
    (Affine.dat (F := Ideal) V c).arrAt 3 cfg1.N = G (V c main_v44) (V c main_v42) (V c main_v43) :=
  (Affine.dat (F := Ideal) V c).arrAt_eq_of_cover 3 (G (V c main_v44) (V c main_v42) (V c main_v43))
    (fun t _ => flushed_eq V c t) cover

/-- A vector at its literal shape: arithmetic on its entries is the extended reals'. -/
abbrev arr (s : Shape) (v : FVec Ideal s .f32) : FVec Ideal s .f32 := v

/-- after the pass the result array holds x · scale + shift, the scale per (batch, channel), the shift per channel -/
theorem final_out (c : Dev nD) (b : Fin 16) (ch : Fin 480) (j : Fin 4096) :
    arr S16x480x4096 ((Affine.dat (F := Ideal) V c).arrAt 3 cfg1.N) (ix3 b ch j)
      = arr S16x480x4096 (V c main_v44) (ix3 b ch j) * arr S16x480 (V c main_v42) (ix2 b ch)
        + arr S1x480 (V c main_v43) (ix2 (0 : Fin 1) ch) :=
  (congrFun (final_arr V c) (ix3 b ch j)).trans (G_apply (V c main_v44) (V c main_v42) (V c main_v43) b ch j)

/-- The same with the three arrays named by the caller: where the pass finds x, s and u, it leaves x · s + u. -/
theorem final_out_of (c : Dev nD) (x : S16x480x4096.Idx → Ideal .f32) (s : S16x480.Idx → Ideal .f32)
    (u : S1x480.Idx → Ideal .f32) (hx : V c main_v44 = x) (hs : V c main_v42 = s) (hu : V c main_v43 = u)
    (b : Fin 16) (ch : Fin 480) (j : Fin 4096) :
    arr S16x480x4096 ((Affine.dat (F := Ideal) V c).arrAt 3 cfg1.N) (ix3 b ch j)
      = x (ix3 b ch j) * s (ix2 b ch) + u (ix2 (0 : Fin 1) ch) := by
  subst hx hs hu
  exact final_out V c b ch j

end Cert.KernelIdeal.AffineValue

end
-- ==== Proof.RefSumSq.lean ====
/-
  The reference's per-(batch, channel) sum of squares read at an index.

  The reference reduces x · x over the two image axes at once, from the initial value zero: at (b, ch) that is zero
  plus the sum of x[i]² over the indices i of x whose batch and channel coordinates are (b, ch). Those indices are
  exactly (b, ch, h, w) for h, w < 64, one for each pair (h, w), so the sum is the double sum over the image
      Σ_{h < 64} Σ_{w < 64} x[b, ch, h, w]².
-/
import proofs.«411428_j71322226918038_3_alg».proof.Proof.RefRun
import Idealize.ShloMosaic.Lib.ValueIdx
import Idealize.ShloMosaic.PureOps.Ideal.Laws
import Mathlib.Algebra.BigOperators.Fin
import Mathlib.Algebra.BigOperators.Group.Finset.Sigma

set_option maxRecDepth 16384

noncomputable section

open scoped BigOperators

namespace Cert.ReferenceIdeal.HandRun

open Cert.ReferenceIdeal Idealize.ShloMosaic Idealize.ShloMosaic.TcCoe Idealize.SL.Sem
open Cert.ReferenceIdeal.Facts₀
open Idealize.ShloMosaic.ValueIdx

/-- Dropping the two image coordinates of (b, ch, h, w) leaves (b, ch). -/
theorem drop_ix4 (b : Fin 16) (ch : Fin 480) (h w : Fin 64) :
    reducesTo_S16x480x64x64_S16x480_d2_3.drop (ix4 b ch h w) = ix2 b ch := by
  funext a; apply Fin.ext
  match a with
  | ⟨0, _⟩ => rfl
  | ⟨1, _⟩ => rfl

/-- An index whose image coordinates dropped leave (b, ch) is (b, ch, h, w) with its own h and w. -/
theorem eq_ix4_of_drop (b : Fin 16) (ch : Fin 480) (i : S16x480x64x64.Idx)
    (hi : reducesTo_S16x480x64x64_S16x480_d2_3.drop i = ix2 b ch) :
    ix4 b ch (i 2 : Fin 64) (i 3 : Fin 64) = i := by
  have h0 : (i 0).val = b.val := congrArg Fin.val (congrFun hi 0)
  have h1 : (i 1).val = ch.val := congrArg Fin.val (congrFun hi 1)
  funext a; apply Fin.ext
  match a with
  | ⟨0, _⟩ => exact h0.symm
  | ⟨1, _⟩ => exact h1.symm
  | ⟨2, _⟩ => rfl
  | ⟨3, _⟩ => rfl

/-- the reference's sum of squares at (b, ch): the sum over the whole 64 × 64 image of the squares of x -/
theorem sumsq_apply (x : FVec Ideal S16x480x64x64 .f32) (b : Fin 16) (ch : Fin 480) :
    sumsq (F := Ideal) x (ValueIdx.ix2 b ch)
      = ∑ h : Fin 64, ∑ w : Fin 64, x (ValueIdx.ix4 b ch h w) * x (ValueIdx.ix4 b ch h w) := by
  unfold sumsq Host.reduceAdd
  rw [Ideal.hostReduceAdd_def]
  unfold Ideal.hostReduceAdd
  rw [constant_apply, Ideal.ofBits_zero_f32, zero_add]
  refine Eq.trans ?_ (Fintype.sum_prod_type' (fun (h w : Fin 64) => x (ix4 b ch h w) * x (ix4 b ch h w)))
  refine Finset.sum_nbij' (fun i => ((i 2 : Fin 64), (i 3 : Fin 64))) (fun p => ix4 b ch p.1 p.2) ?_ ?_ ?_ ?_ ?_
  · intro i _; exact Finset.mem_univ _
  · intro p _; exact Finset.mem_filter.mpr ⟨Finset.mem_univ _, drop_ix4 b ch p.1 p.2⟩
  · intro i hi; exact eq_ix4_of_drop b ch i (Finset.mem_filter.mp hi).2
  · intro p _; rfl
  · intro i hi
    have e := eq_ix4_of_drop b ch i (Finset.mem_filter.mp hi).2
    exact congrArg (fun j => x j * x j) e.symm

end Cert.ReferenceIdeal.HandRun

end
-- ==== Proof.Bridge.lean ====
/-
  The two programs compute the same array.

  Kernel, at (b, c, h, w):     x · (N[b, c] · gamma[field c] + 1) + beta[field c]
  Reference, at (b, c, h, w):  gamma[field c] · (x · N[b, c]) + beta[field c] + x
  with N = fieldNorm(table, ss) the SAME host chain in both programs, applied to the same per-(batch, channel) sums
  of squares ss (the kernel's first pass accumulates them block by block, the reference reduces over the image at
  once: both are the double sum over the image), the same channel-to-field table, and x real by the precondition.
-/
import proofs.«411428_j71322226918038_3_alg».proof.Proof.RefValue
import proofs.«411428_j71322226918038_3_alg».proof.Proof.Algebra
import proofs.«411428_j71322226918038_3_alg».proof.Proof.Ideal.KernelValue
import proofs.«411428_j71322226918038_3_alg».proof.Proof.Ideal.SumSqValue
import proofs.«411428_j71322226918038_3_alg».proof.Proof.Ideal.AffineValue
import proofs.«411428_j71322226918038_3_alg».proof.Proof.RefSumSq

set_option maxRecDepth 16384

noncomputable section

namespace Cert.Bridge

open Idealize.ShloMosaic Idealize.ShloMosaic.TcCoe Idealize.SL.Sem Idealize.ShloMosaic.ValueIdx

/-! ## The two programs' tables and host chains are the same -/

/-- The two printed channel-to-field tables agree entry by entry. -/
theorem lit_eq : ∀ i : Fin 480, Cert.KernelIdeal.lit0 i = Cert.ReferenceIdeal.lit0 i := by decide +kernel

theorem segTab_eq : Cert.KernelIdeal.HostChain.segTab (F := Ideal) = Cert.ReferenceIdeal.HandRun.segTab (F := Ideal) :=
  funext fun _ => lit_eq _

/-- The wrapped index column, the same operations in both programs. -/
theorem wrapIdx_eq (seg : IVec Cert.KernelIdeal.S480 32) :
    Cert.KernelIdeal.HostChain.wrapIdx (F := Ideal) seg = Cert.ReferenceIdeal.HandRun.wrapIdx (F := Ideal) seg := rfl

/-- The normaliser, the same operations in both programs. -/
theorem fieldNorm_eq (seg : IVec Cert.KernelIdeal.S480 32) (ss : FVec Ideal Cert.KernelIdeal.S16x480 .f32) :
    Cert.KernelIdeal.HostChain.fieldNorm (F := Ideal) seg ss = Cert.ReferenceIdeal.HandRun.fieldNorm (F := Ideal) seg ss := rfl

theorem fieldOf_eq (c : Fin 480) : Cert.KernelIdeal.HostChain.fieldOf c = Cert.ReferenceIdeal.HandRun.fieldOf c := by
  unfold Cert.KernelIdeal.HostChain.fieldOf Cert.ReferenceIdeal.HandRun.fieldOf
  simp only [segTab_eq, wrapIdx_eq]

/-! ## The sums of squares are the same array -/

open Cert.KernelIdeal in
/-- What the kernel's first pass leaves in its result array is the reference's reduced array: both are, at
    (b, c), the double sum over the 64 × 64 image of the squares of x. -/
theorem ss_eq (m : (ℓ : Loc nD τ sig) → Buf (Elt Ideal) ℓ) (ρ : Dev nD → PrngReg) (c : Dev nD) :
    HostChain.arr S16x480 ((SumSq.dat (F := Ideal) (Whole.V1 m ρ) c).arrAt 1 cfg0.N)
      = Cert.ReferenceIdeal.HandRun.sumsq (F := Ideal) (m ((c.tc : Thread nD τ).loc main_arg0)) := by
  funext j
  obtain ⟨b, ch, rfl⟩ : ∃ (b : Fin 16) (ch : Fin 480), j = ix2 b ch := ⟨j 0, j 1, eq_ix2 j⟩
  refine (SumSqValue.final_ss (Whole.V1 m ρ) c b ch).trans ?_
  rw [Cert.ReferenceIdeal.HandRun.sumsq_apply]
  simp only [SumSqValue.arr, show Whole.V1 m ρ c main_arg0 = m ((c.tc : Thread nD τ).loc main_arg0) from HostChain.W1_arg0 m ρ c]

/-! ## The results are the same array -/

open Cert.KernelIdeal in
/-- On each device, under the precondition, the kernel program's result buffer holds the reference's result of the
    same arguments. -/
theorem kernel_eq_reference (m : (ℓ : Loc nD τ sig) → Buf (Elt Ideal) ℓ) (ρ : Dev nD → PrngReg) (c : Dev nD)
    (hpre : Cert.Pre_finite_inputs.fn (F := Ideal) (m ((c.tc : Thread nD τ).loc main_arg0)) (m ((c.tc : Thread nD τ).loc main_arg1)) (m ((c.tc : Thread nD τ).loc main_arg2)) = fun _ => 1#1) :
    HostChain.arr S16x480x64x64 (Whole.W5 (F := Ideal) m ρ c main_v46)
      = Cert.ReferenceIdeal.HandRun.result (F := Ideal) (m ((c.tc : Thread nD τ).loc main_arg0)) (m ((c.tc : Thread nD τ).loc main_arg1)) (m ((c.tc : Thread nD τ).loc main_arg2)) := by
  funext j
  obtain ⟨i0, i1, i2, i3, rfl⟩ : ∃ (i0 : Fin 16) (i1 : Fin 480) (i2 i3 : Fin 64), j = ix4 i0 i1 i2 i3 := ⟨j 0, j 1, j 2, j 3, eq_ix4 j⟩
  rw [HostChain.out_apply m ρ c (fun b ch j => AffineValue.final_out (Whole.V3 m ρ) c b ch j), Cert.ReferenceIdeal.HandRun.result_apply,
    show (SumSq.dat (F := Ideal) (Whole.V1 m ρ) c).arrAt 1 cfg0.N = _ from ss_eq m ρ c, fieldNorm_eq, segTab_eq, fieldOf_eq]
  obtain ⟨r, hr⟩ := input_real _ _ _ hpre (ix4 i0 i1 i2 i3)
  have hx : HostChain.arr S16x480x64x64 (m ((c.tc : Thread nD τ).loc main_arg0)) (ix4 i0 i1 i2 i3) = (r : EReal) := hr
  show HostChain.arr S16x480x64x64 (m ((c.tc : Thread nD τ).loc main_arg0)) (ix4 i0 i1 i2 i3) * _ + _
    = _ * (HostChain.arr S16x480x64x64 (m ((c.tc : Thread nD τ).loc main_arg0)) (ix4 i0 i1 i2 i3) * _) + _
      + HostChain.arr S16x480x64x64 (m ((c.tc : Thread nD τ).loc main_arg0)) (ix4 i0 i1 i2 i3)
  rw [hx]
  exact affine_forms r _ _ _

end Cert.Bridge

end
-- ==== Proof.lean ====
/-
  The kernel (a ragged response normalisation in two Pallas passes) against its jnp reference, over the extended reals.

  Input x : f32[16, 480, 64, 64], gamma, beta : f32[1, 128, 1, 1]; a fixed table sends each of the 480 channels to one
  of 128 fields. With ss[b, c] = Σ_{h, w} x[b, c, h, w]² and N = fieldNorm(table, ss) (per field: the sum of ss over
  the field's channels, its square root, divided by the mean of the roots over the fields plus a small constant; read
  back per channel), the kernel computes  x · (N · gamma[field] + 1) + beta[field]  and the reference
  gamma[field] · (x · N) + beta[field] + x.

  * The kernel's first pass accumulates ss in a scratch buffer over 8 blocks of image rows per batch block
    (Proof/Ideal/SumSq.lean, SumSqValue.lean); the reference reduces over the image at once (RefSumSq.lean): the same
    double sum, by re-grouping a sum of extended reals.
  * N is the same chain of host operations in both programs (Ideal/HostChain.lean, RefRun.lean; identified in
    Bridge.lean), as are the gathers of gamma and beta through the table.
  * The kernel's second pass is x · scale + shift block by block (Ideal/Affine.lean, AffineValue.lean).
  * x · (n · g + 1) + b = g · (x · n) + b + x holds for a REAL x and any extended reals n, g, b (Algebra.lean); x is
    real by the precondition (every input finite), which is all of the precondition the proof uses.

  The three frames (each program terminates, faults nowhere, leaves its arguments unchanged) come from the same runs:
  the kernel program's run through its five stretches (Whole.lean, at the bit-exact instance through the same modules
  laid out for the word-level program), the reference's run of its straight line of host operations (RefRun.lean).
  The idealisation rewrote no operation, so there is nothing to preserve.
-/
import proofs.«411428_j71322226918038_3_alg».proof.Defs
import proofs.«411428_j71322226918038_3_alg».proof.Proof.Gen.Kernel
import proofs.«411428_j71322226918038_3_alg».proof.Proof.Gen.KernelIdeal
import proofs.«411428_j71322226918038_3_alg».proof.Proof.Gen.ReferenceIdeal
import proofs.«411428_j71322226918038_3_alg».proof.Proof.Gen.Pre_finite_inputs
import proofs.«411428_j71322226918038_3_alg».proof.Proof.Bits.Whole
import proofs.«411428_j71322226918038_3_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs, and its arguments end unchanged. -/
theorem frame_kernel : Cert.frame_Kernel := fun m ρ _ => Cert.Kernel.Whole.frame (F := Bits) m ρ

/-- The idealised kernel program runs, and its arguments end unchanged. -/
theorem frame_kernelIdeal : Cert.frame_KernelIdeal := fun m ρ _ => Cert.KernelIdeal.Whole.frame (F := Ideal) m ρ

/-- The reference runs, and its arguments end unchanged: its run with the result dropped. -/
theorem frame_reference : Cert.frame_ReferenceIdeal := fun m ρ _ =>
  (θ_run Cert.ReferenceIdeal.defs _ _).mono (fun _ h c => (h c).2) (Cert.ReferenceIdeal.HandRun.run (F := Ideal) m ρ)

/-- From memories agreeing on the arguments both programs run and end with the same result array: the kernel's
    result buffer, read off its run, is the reference's result of the same arguments. -/
theorem algebraic : Cert.algebraic_KernelIdeal_ReferenceIdeal := by
  intro m ρ m' ρ' hpre hagree
  refine ⟨fun c => Cert.KernelIdeal.Whole.W5 (F := Ideal) m ρ c Cert.KernelIdeal.main_v46, ?_, ?_⟩
  · exact (θ_run (Cert.KernelIdeal.defs (F := Ideal)) _ _).mono (fun r h c =>
      ⟨h c _ (Cert.KernelIdeal.Whole.mem_uc Cert.KernelIdeal.main_v46 (by decide)),
       (h c _ (Cert.KernelIdeal.Whole.mem_uc Cert.KernelIdeal.main_arg0 (by decide))).trans (Cert.KernelIdeal.Whole.W5_main_arg0 m ρ c),
       (h c _ (Cert.KernelIdeal.Whole.mem_uc Cert.KernelIdeal.main_arg1 (by decide))).trans (Cert.KernelIdeal.Whole.W5_main_arg1 m ρ c),
       (h c _ (Cert.KernelIdeal.Whole.mem_uc Cert.KernelIdeal.main_arg2 (by decide))).trans (Cert.KernelIdeal.Whole.W5_main_arg2 m ρ c)⟩)
      (Cert.KernelIdeal.Whole.run_all (F := Ideal) m ρ)
  · refine (θ_run (Cert.ReferenceIdeal.defs (F := Ideal)) _ _).mono (fun r h c => ⟨(h c).1.trans ?_, (h c).2⟩)
      (Cert.ReferenceIdeal.HandRun.run (F := Ideal) m' ρ')
    rw [(hagree c).1, (hagree c).2.1, (hagree c).2.2]
    exact (Cert.Bridge.kernel_eq_reference m ρ c (hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
